-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S67108864 : Shape := ⟨1, ![67108864]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S67108864 : S_.BroadcastsInDim S67108864 (![] : Fin 0 → Fin S67108864.rank)
  reducesTo_S67108864_S_d0 : S67108864.ReducesTo [0] S_

variable [Facts]

def fn {F : FTy → Type} [FloatOps F] (main_arg0 : FVec F S65536 .f32) (main_arg1 : FVec F S67108864 .f32) : IVec S_ 1 :=
  let main_v0 : FVec F S65536 .f32 := Host.absf main_arg0
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S67108864 .f32 := Host.absf main_arg1
  let main_cst_0 : FVec F S_ .f32 := constant S_ .f32 0x7F800000#32
  let main_v5 : FVec F S67108864 .f32 := broadcastInDim S67108864 ![] bcast_S_S67108864 main_cst_0
  let main_v6 : IVec S67108864 1 := cmpf .olt main_v4 main_v5
  let main_c_1 : IVec S_ 1 := constantI S_ 1 1#1
  let main_v7 : IVec S_ 1 := (fun x v => Host.reduce IntOp.andi x v reducesTo_S67108864_S_d0 h_S_) main_v6 main_c_1
  let main_v8 : IVec S_ 1 := andi main_v3 main_v7
  main_v8
-- ==== Kernel.lean ====
abbrev S65536 : Shape := ⟨1, ![65536]⟩
abbrev S67108864 : Shape := ⟨1, ![67108864]⟩
abbrev S4096 : Shape := ⟨1, ![4096]⟩
abbrev S4096x1 : Shape := ⟨2, ![4096, 1]⟩
abbrev S1x4096 : Shape := ⟨2, ![1, 4096]⟩
abbrev S16777216 : Shape := ⟨1, ![16777216]⟩
abbrev S4096x4096 : Shape := ⟨2, ![4096, 4096]⟩
abbrev S4096x512 : Shape := ⟨2, ![4096, 512]⟩
abbrev S1x512 : Shape := ⟨2, ![1, 512]⟩
abbrev S12288 : Shape := ⟨1, ![12288]⟩
abbrev S4096x3 : Shape := ⟨2, ![4096, 3]⟩
abbrev S3x4096 : Shape := ⟨2, ![3, 4096]⟩
abbrev S3x512 : Shape := ⟨2, ![3, 512]⟩
abbrev S20480 : Shape := ⟨1, ![20480]⟩
abbrev S4096x5 : Shape := ⟨2, ![4096, 5]⟩
abbrev S5x4096 : Shape := ⟨2, ![5, 4096]⟩
abbrev S5x512 : Shape := ⟨2, ![5, 512]⟩
abbrev S28672 : Shape := ⟨1, ![28672]⟩
abbrev S4096x7 : Shape := ⟨2, ![4096, 7]⟩
abbrev S7x4096 : Shape := ⟨2, ![7, 4096]⟩
abbrev S7x512 : Shape := ⟨2, ![7, 512]⟩

abbrev nBuf : Space → Nat
  | .hbm => 35
  | .vmem => 20
  | .smem => 0
  | _ => 0

abbrev bufTy : (tb : Table) → Fin (tcTables nBuf tb) → BufTy
  | .hbm, ⟨0, _⟩ => ⟨S65536, .f32⟩
  | .hbm, ⟨1, _⟩ => ⟨S67108864, .f32⟩
  | .hbm, ⟨2, _⟩ => ⟨S4096, .f32⟩
  | .hbm, ⟨3, _⟩ => ⟨S4096x1, .f32⟩
  | .hbm, ⟨4, _⟩ => ⟨S1x4096, .f32⟩
  | .hbm, ⟨5, _⟩ => ⟨S16777216, .f32⟩
  | .hbm, ⟨6, _⟩ => ⟨S4096x4096, .f32⟩
  | .hbm, ⟨7, _⟩ => ⟨S1x4096, .f32⟩
  | .hbm, ⟨8, _⟩ => ⟨S4096x1, .f32⟩
  | .hbm, ⟨9, _⟩ => ⟨S4096, .f32⟩
  | .hbm, ⟨10, _⟩ => ⟨S12288, .f32⟩
  | .hbm, ⟨11, _⟩ => ⟨S4096x3, .f32⟩
  | .hbm, ⟨12, _⟩ => ⟨S3x4096, .f32⟩
  | .hbm, ⟨13, _⟩ => ⟨S16777216, .f32⟩
  | .hbm, ⟨14, _⟩ => ⟨S4096x4096, .f32⟩
  | .hbm, ⟨15, _⟩ => ⟨S3x4096, .f32⟩
  | .hbm, ⟨16, _⟩ => ⟨S4096x3, .f32⟩
  | .hbm, ⟨17, _⟩ => ⟨S12288, .f32⟩
  | .hbm, ⟨18, _⟩ => ⟨S20480, .f32⟩
  | .hbm, ⟨19, _⟩ => ⟨S4096x5, .f32⟩
  | .hbm, ⟨20, _⟩ => ⟨S5x4096, .f32⟩
  | .hbm, ⟨21, _⟩ => ⟨S16777216, .f32⟩
  | .hbm, ⟨22, _⟩ => ⟨S4096x4096, .f32⟩
  | .hbm, ⟨23, _⟩ => ⟨S5x4096, .f32⟩
  | .hbm, ⟨24, _⟩ => ⟨S4096x5, .f32⟩
  | .hbm, ⟨25, _⟩ => ⟨S20480, .f32⟩
  | .hbm, ⟨26, _⟩ => ⟨S28672, .f32⟩
  | .hbm, ⟨27, _⟩ => ⟨S4096x7, .f32⟩
  | .hbm, ⟨28, _⟩ => ⟨S7x4096, .f32⟩
  | .hbm, ⟨29, _⟩ => ⟨S16777216, .f32⟩
  | .hbm, ⟨30, _⟩ => ⟨S4096x4096, .f32⟩
  | .hbm, ⟨31, _⟩ => ⟨S7x4096, .f32⟩
  | .hbm, ⟨32, _⟩ => ⟨S4096x7, .f32⟩
  | .hbm, ⟨33, _⟩ => ⟨S28672, .f32⟩
  | .hbm, ⟨34, _⟩ => ⟨S65536, .f32⟩
  | .local _ .vmem, ⟨0, _⟩ => ⟨S1x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S3x4096, .f32⟩
  | .local _ .vmem, ⟨6, _⟩ => ⟨S4096x512, .f32⟩
  | .local _ .vmem, ⟨7, _⟩ => ⟨S4096x512, .f32⟩
  | .local _ .vmem, ⟨8, _⟩ => ⟨S3x512, .f32⟩
  | .local _ .vmem, ⟨9, _⟩ => ⟨S3x512, .f32⟩
  | .local _ .vmem, ⟨10, _⟩ => ⟨S5x4096, .f32⟩
  | .local _ .vmem, ⟨11, _⟩ => ⟨S4096x512, .f32⟩
  | .local _ .vmem, ⟨12, _⟩ => ⟨S4096x512, .f32⟩
  | .local _ .vmem, ⟨13, _⟩ => ⟨S5x512, .f32⟩
  | .local _ .vmem, ⟨14, _⟩ => ⟨S5x512, .f32⟩
  | .local _ .vmem, ⟨15, _⟩ => ⟨S7x4096, .f32⟩
  | .local _ .vmem, ⟨16, _⟩ => ⟨S4096x512, .f32⟩
  | .local _ .vmem, ⟨17, _⟩ => ⟨S4096x512, .f32⟩
  | .local _ .vmem, ⟨18, _⟩ => ⟨S7x512, .f32⟩
  | .local _ .vmem, ⟨19, _⟩ => ⟨S7x512, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S3x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S5x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S7x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S7x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S65536_S4096_0 : S65536.Slices ![0] S4096
  shapeCasts_S4096_S4096x1 : S4096.ShapeCasts S4096x1
  transposes_S4096x1_S1x4096_1_0 : S4096x1.Transposes [1, 0] S1x4096
  slices_S67108864_S16777216_0 : S67108864.Slices ![0] S16777216
  shapeCasts_S16777216_S4096x4096 : S16777216.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  transposes_S1x4096_S4096x1_1_0 : S1x4096.Transposes [1, 0] S4096x1
  shapeCasts_S4096x1_S4096 : S4096x1.ShapeCasts S4096
  slices_S65536_S12288_4096 : S65536.Slices ![4096] S12288
  shapeCasts_S12288_S4096x3 : S12288.ShapeCasts S4096x3
  transposes_S4096x3_S3x4096_1_0 : S4096x3.Transposes [1, 0] S3x4096
  slices_S67108864_S16777216_16777216 : S67108864.Slices ![16777216] S16777216
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  inb_S3x512_S3x512_0_0 : ∀ a, (![0, 0] : Fin 2 → Nat) a + S3x512.size a ≤ S3x512.size a
  h_S3x512 : 0 < S3x512.numel
  transposes_S3x4096_S4096x3_1_0 : S3x4096.Transposes [1, 0] S4096x3
  shapeCasts_S4096x3_S12288 : S4096x3.ShapeCasts S12288
  slices_S65536_S20480_16384 : S65536.Slices ![16384] S20480
  shapeCasts_S20480_S4096x5 : S20480.ShapeCasts S4096x5
  transposes_S4096x5_S5x4096_1_0 : S4096x5.Transposes [1, 0] S5x4096
  slices_S67108864_S16777216_33554432 : S67108864.Slices ![33554432] S16777216
  inb_S5x4096_S5x4096_0_0 : ∀ a, (![0, 0] : Fin 2 → Nat) a + S5x4096.size a ≤ S5x4096.size a
  h_S5x4096 : 0 < S5x4096.numel
  shapeCasts_S5x4096_S5x4096 : S5x4096.ShapeCasts S5x4096
  inb_S5x512_S5x512_0_0 : ∀ a, (![0, 0] : Fin 2 → Nat) a + S5x512.size a ≤ S5x512.size a
  h_S5x512 : 0 < S5x512.numel
  transposes_S5x4096_S4096x5_1_0 : S5x4096.Transposes [1, 0] S4096x5
  shapeCasts_S4096x5_S20480 : S4096x5.ShapeCasts S20480
  slices_S65536_S28672_36864 : S65536.Slices ![36864] S28672
  shapeCasts_S28672_S4096x7 : S28672.ShapeCasts S4096x7
  transposes_S4096x7_S7x4096_1_0 : S4096x7.Transposes [1, 0] S7x4096
  slices_S67108864_S16777216_50331648 : S67108864.Slices ![50331648] S16777216
  inb_S7x4096_S7x4096_0_0 : ∀ a, (![0, 0] : Fin 2 → Nat) a + S7x4096.size a ≤ S7x4096.size a
  h_S7x4096 : 0 < S7x4096.numel
  shapeCasts_S7x4096_S7x4096 : S7x4096.ShapeCasts S7x4096
  inb_S7x512_S7x512_0_0 : ∀ a, (![0, 0] : Fin 2 → Nat) a + S7x512.size a ≤ S7x512.size a
  h_S7x512 : 0 < S7x512.numel
  transposes_S7x4096_S4096x7_1_0 : S7x4096.Transposes [1, 0] S4096x7
  shapeCasts_S4096x7_S28672 : S4096x7.ShapeCasts S28672
  concatenates_S4096_S12288_S20480_S28672_S65536_d0 : Shape.Concatenates [S4096, S12288, S20480, S28672] S65536 0
  dot_S1x4096_S4096x512_S1x512_1_0_0_1_n_n_wf : DotDims.WF S1x4096 S4096x512 S1x512 [1] [0] [0] [1] [] []
  dot_S3x4096_S4096x512_S3x512_1_0_0_1_n_n_wf : DotDims.WF S3x4096 S4096x512 S3x512 [1] [0] [0] [1] [] []
  dot_S5x4096_S4096x512_S5x512_1_0_0_1_n_n_wf : DotDims.WF S5x4096 S4096x512 S5x512 [1] [0] [0] [1] [] []
  dot_S7x4096_S4096x512_S7x512_1_0_0_1_n_n_wf : DotDims.WF S7x4096 S4096x512 S7x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S3x4096.size a ≤ S3x4096.size a
  hwx1_0 : ∀ i : grid1.Coords, EltTy.bits .f32 = 32 ∨ (Rect.block (s := S3x4096) S3x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x4096.size a
  hwx1_1 : ∀ i : grid1.Coords, EltTy.bits .f32 = 32 ∨ (Rect.block (s := S4096x4096) S4096x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x512.size a ≤ S3x4096.size a
  hwx1_2 : ∀ i : grid1.Coords, EltTy.bits .f32 = 32 ∨ (Rect.block (s := S3x4096) S3x512.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S5x4096.size a ≤ S5x4096.size a
  hwx2_0 : ∀ i : grid2.Coords, EltTy.bits .f32 = 32 ∨ (Rect.block (s := S5x4096) S5x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x512.size a ≤ S4096x4096.size a
  hwx2_1 : ∀ i : grid2.Coords, EltTy.bits .f32 = 32 ∨ (Rect.block (s := S4096x4096) S4096x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5x512.size a ≤ S5x4096.size a
  hwx2_2 : ∀ i : grid2.Coords, EltTy.bits .f32 = 32 ∨ (Rect.block (s := S5x4096) S5x512.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S7x4096.size a ≤ S7x4096.size a
  hwx3_0 : ∀ i : grid3.Coords, EltTy.bits .f32 = 32 ∨ (Rect.block (s := S7x4096) S7x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x512.size a ≤ S4096x4096.size a
  hwx3_1 : ∀ i : grid3.Coords, EltTy.bits .f32 = 32 ∨ (Rect.block (s := S4096x4096) S4096x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S7x512.size a ≤ S7x4096.size a
  hwx3_2 : ∀ i : grid3.Coords, EltTy.bits .f32 = 32 ∨ (Rect.block (s := S7x4096) S7x512.size (cc3_transform_2 i) (hinb3_2 i)).WholeWords (EltTy.packing .f32)

variable [Facts₀]

def dot_S1x4096_S4096x512_S1x512_1_0_0_1_n_n : DotDims S1x4096 S4096x512 S1x512 where
  lhsContracting := [1]
  rhsContracting := [0]
  lhsNonContracting := [0]
  rhsNonContracting := [1]
  lhsBatch := []
  rhsBatch := []
  wf := dot_S1x4096_S4096x512_S1x512_1_0_0_1_n_n_wf
def dot_S3x4096_S4096x512_S3x512_1_0_0_1_n_n : DotDims S3x4096 S4096x512 S3x512 where
  lhsContracting := [1]
  rhsContracting := [0]
  lhsNonContracting := [0]
  rhsNonContracting := [1]
  lhsBatch := []
  rhsBatch := []
  wf := dot_S3x4096_S4096x512_S3x512_1_0_0_1_n_n_wf
def dot_S5x4096_S4096x512_S5x512_1_0_0_1_n_n : DotDims S5x4096 S4096x512 S5x512 where
  lhsContracting := [1]
  rhsContracting := [0]
  lhsNonContracting := [0]
  rhsNonContracting := [1]
  lhsBatch := []
  rhsBatch := []
  wf := dot_S5x4096_S4096x512_S5x512_1_0_0_1_n_n_wf
def dot_S7x4096_S4096x512_S7x512_1_0_0_1_n_n : DotDims S7x4096 S4096x512 S7x512 where
  lhsContracting := [1]
  rhsContracting := [0]
  lhsNonContracting := [0]
  rhsNonContracting := [1]
  lhsBatch := []
  rhsBatch := []
  wf := dot_S7x4096_S4096x512_S7x512_1_0_0_1_n_n_wf

abbrev win0_0 : Pipeline.Window sig grid0 :=
  Pipeline.Window.ofSpec (Memref.whole main_v2) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S3x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S3x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S5x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v20) S4096x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S5x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v26) S7x4096.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v28) S4096x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S7x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S65536 : Shape := ⟨1, ![65536]⟩
abbrev S67108864 : Shape := ⟨1, ![67108864]⟩
abbrev S4096 : Shape := ⟨1, ![4096]⟩
abbrev S4096x1 : Shape := ⟨2, ![4096, 1]⟩
abbrev S16777216 : Shape := ⟨1, ![16777216]⟩
abbrev S4096x4096 : Shape := ⟨2, ![4096, 4096]⟩
abbrev S_ : Shape := ⟨0, ![]⟩
abbrev S12288 : Shape := ⟨1, ![12288]⟩
abbrev S4096x3 : Shape := ⟨2, ![4096, 3]⟩
abbrev S20480 : Shape := ⟨1, ![20480]⟩
abbrev S4096x5 : Shape := ⟨2, ![4096, 5]⟩
abbrev S28672 : Shape := ⟨1, ![28672]⟩
abbrev S4096x7 : Shape := ⟨2, ![4096, 7]⟩

abbrev nBuf : Space → Nat
  | .hbm => 39
  | .vmem => 0
  | .smem => 0
  | _ => 0

abbrev bufTy : (tb : Table) → Fin (tcTables nBuf tb) → BufTy
  | .hbm, ⟨0, _⟩ => ⟨S65536, .f32⟩
  | .hbm, ⟨1, _⟩ => ⟨S67108864, .f32⟩
  | .hbm, ⟨2, _⟩ => ⟨S4096, .f32⟩
  | .hbm, ⟨3, _⟩ => ⟨S4096x1, .f32⟩
  | .hbm, ⟨4, _⟩ => ⟨S16777216, .f32⟩
  | .hbm, ⟨5, _⟩ => ⟨S4096x4096, .f32⟩
  | .hbm, ⟨6, _⟩ => ⟨S4096x1, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S12288, .f32⟩
  | .hbm, ⟨12, _⟩ => ⟨S4096x3, .f32⟩
  | .hbm, ⟨13, _⟩ => ⟨S16777216, .f32⟩
  | .hbm, ⟨14, _⟩ => ⟨S4096x4096, .f32⟩
  | .hbm, ⟨15, _⟩ => ⟨S4096x3, .f32⟩
  | .hbm, ⟨16, _⟩ => ⟨S12288, .f32⟩
  | .hbm, ⟨17, _⟩ => ⟨S_, .f32⟩
  | .hbm, ⟨18, _⟩ => ⟨S12288, .f32⟩
  | .hbm, ⟨19, _⟩ => ⟨S12288, .f32⟩
  | .hbm, ⟨20, _⟩ => ⟨S20480, .f32⟩
  | .hbm, ⟨21, _⟩ => ⟨S4096x5, .f32⟩
  | .hbm, ⟨22, _⟩ => ⟨S16777216, .f32⟩
  | .hbm, ⟨23, _⟩ => ⟨S4096x4096, .f32⟩
  | .hbm, ⟨24, _⟩ => ⟨S4096x5, .f32⟩
  | .hbm, ⟨25, _⟩ => ⟨S20480, .f32⟩
  | .hbm, ⟨26, _⟩ => ⟨S_, .f32⟩
  | .hbm, ⟨27, _⟩ => ⟨S20480, .f32⟩
  | .hbm, ⟨28, _⟩ => ⟨S20480, .f32⟩
  | .hbm, ⟨29, _⟩ => ⟨S28672, .f32⟩
  | .hbm, ⟨30, _⟩ => ⟨S4096x7, .f32⟩
  | .hbm, ⟨31, _⟩ => ⟨S16777216, .f32⟩
  | .hbm, ⟨32, _⟩ => ⟨S4096x4096, .f32⟩
  | .hbm, ⟨33, _⟩ => ⟨S4096x7, .f32⟩
  | .hbm, ⟨34, _⟩ => ⟨S28672, .f32⟩
  | .hbm, ⟨35, _⟩ => ⟨S_, .f32⟩
  | .hbm, ⟨36, _⟩ => ⟨S28672, .f32⟩
  | .hbm, ⟨37, _⟩ => ⟨S28672, .f32⟩
  | .hbm, ⟨38, _⟩ => ⟨S65536, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]

class Facts₀ : Prop where
  slices_S65536_S4096_0 : S65536.Slices ![0] S4096
  shapeCasts_S4096_S4096x1 : S4096.ShapeCasts S4096x1
  slices_S67108864_S16777216_0 : S67108864.Slices ![0] S16777216
  shapeCasts_S16777216_S4096x4096 : S16777216.ShapeCasts S4096x4096
  shapeCasts_S4096x1_S4096 : S4096x1.ShapeCasts S4096
  bcast_S_S4096 : S_.BroadcastsInDim S4096 (![] : Fin 0 → Fin S4096.rank)
  slices_S65536_S12288_4096 : S65536.Slices ![4096] S12288
  shapeCasts_S12288_S4096x3 : S12288.ShapeCasts S4096x3
  slices_S67108864_S16777216_16777216 : S67108864.Slices ![16777216] S16777216
  shapeCasts_S4096x3_S12288 : S4096x3.ShapeCasts S12288
  bcast_S_S12288 : S_.BroadcastsInDim S12288 (![] : Fin 0 → Fin S12288.rank)
  slices_S65536_S20480_16384 : S65536.Slices ![16384] S20480
  shapeCasts_S20480_S4096x5 : S20480.ShapeCasts S4096x5
  slices_S67108864_S16777216_33554432 : S67108864.Slices ![33554432] S16777216
  shapeCasts_S4096x5_S20480 : S4096x5.ShapeCasts S20480
  bcast_S_S20480 : S_.BroadcastsInDim S20480 (![] : Fin 0 → Fin S20480.rank)
  slices_S65536_S28672_36864 : S65536.Slices ![36864] S28672
  shapeCasts_S28672_S4096x7 : S28672.ShapeCasts S4096x7
  slices_S67108864_S16777216_50331648 : S67108864.Slices ![50331648] S16777216
  shapeCasts_S4096x7_S28672 : S4096x7.ShapeCasts S28672
  bcast_S_S28672 : S_.BroadcastsInDim S28672 (![] : Fin 0 → Fin S28672.rank)
  concatenates_S4096_S12288_S20480_S28672_S65536_d0 : Shape.Concatenates [S4096, S12288, S20480, S28672] S65536 0
  dot_S4096x4096_S4096x1_S4096x1_0_0_1_1_n_n_wf : DotDims.WF S4096x4096 S4096x1 S4096x1 [0] [0] [1] [1] [] []
  dot_S4096x4096_S4096x3_S4096x3_0_0_1_1_n_n_wf : DotDims.WF S4096x4096 S4096x3 S4096x3 [0] [0] [1] [1] [] []
  dot_S4096x4096_S4096x5_S4096x5_0_0_1_1_n_n_wf : DotDims.WF S4096x4096 S4096x5 S4096x5 [0] [0] [1] [1] [] []
  dot_S4096x4096_S4096x7_S4096x7_0_0_1_1_n_n_wf : DotDims.WF S4096x4096 S4096x7 S4096x7 [0] [0] [1] [1] [] []

variable [Facts₀]

def dot_S4096x4096_S4096x1_S4096x1_0_0_1_1_n_n : DotDims S4096x4096 S4096x1 S4096x1 where
  lhsContracting := [0]
  rhsContracting := [0]
  lhsNonContracting := [1]
  rhsNonContracting := [1]
  lhsBatch := []
  rhsBatch := []
  wf := dot_S4096x4096_S4096x1_S4096x1_0_0_1_1_n_n_wf
def dot_S4096x4096_S4096x3_S4096x3_0_0_1_1_n_n : DotDims S4096x4096 S4096x3 S4096x3 where
  lhsContracting := [0]
  rhsContracting := [0]
  lhsNonContracting := [1]
  rhsNonContracting := [1]
  lhsBatch := []
  rhsBatch := []
  wf := dot_S4096x4096_S4096x3_S4096x3_0_0_1_1_n_n_wf
def dot_S4096x4096_S4096x5_S4096x5_0_0_1_1_n_n : DotDims S4096x4096 S4096x5 S4096x5 where
  lhsContracting := [0]
  rhsContracting := [0]
  lhsNonContracting := [1]
  rhsNonContracting := [1]
  lhsBatch := []
  rhsBatch := []
  wf := dot_S4096x4096_S4096x5_S4096x5_0_0_1_1_n_n_wf
def dot_S4096x4096_S4096x7_S4096x7_0_0_1_1_n_n : DotDims S4096x4096 S4096x7 S4096x7 where
  lhsContracting := [0]
  rhsContracting := [0]
  lhsNonContracting := [1]
  rhsNonContracting := [1]
  lhsBatch := []
  rhsBatch := []
  wf := dot_S4096x4096_S4096x7_S4096x7_0_0_1_1_n_n_wf

class Facts : Prop extends Facts₀ where

variable [Facts]
-- ==== Proof.K.Region0.lean ====
/-
  Region 0 of the program: the pallas_call that multiplies the block `x : [1, 4096]` (resident: the same
  block at every grid point) by the column tile `w[:, 512 n : 512 (n+1)] : [4096, 512]` of a `[4096, 4096]` matrix and
  scales the product by a constant, writing the `[1, 512]` tile `n` of the `[1, 4096]` result, for `n = 0 … 7`.
  Stated at a PARAMETER `V`, the buffers' contents when the region is entered, and for any float instance `F`:
  the blocks the body finds, what the body leaves in the output tile as one pure term of those blocks, the body's
  triple, the pipeline's proof data and the body obligation the launch theorem asks for.
-/
import proofs.«181552_j81286551044362_1_alg».proof.Proof.Gen.Kernel.Launch
import proofs.«181552_j81286551044362_1_alg».proof.Proof.Gen.Kernel.Skeleton
import proofs.«181552_j81286551044362_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at grid point `t`: the window's rectangle at `t` read off the window's array as the region
    finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The resident input: its staging buffer holds its block at every point (fetched at the first point, and the block
    index never moves), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix tile: fetched at every point, so its staging buffer holds its block there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x4096 := Rect.unit (s := S1x4096) ![0, 0] S1x4096.size inb_S1x4096_S1x4096_0_0
abbrev r0_1 : Rect S4096x512 := Rect.unit (s := S4096x512) ![0, 0] S4096x512.size inb_S4096x512_S4096x512_0_0
abbrev r0_2 : Rect S1x512 := Rect.unit (s := S1x512) ![0, 0] S1x512.size inb_S1x512_S1x512_0_0

/-! ## What the body leaves in the output tile -/

/-- The output tile after the body, from the two input blocks: its one store, of the scaled product. -/
def out0_2 (x0 : Vec F S1x4096 .f32) (x1 : Vec F S4096x512 .f32) : Vec F S1x512 .f32 :=
  View.canon [⟨r0_2, k0_pay1 (View.ld x0 r0_0) (View.ld x1 r0_1)⟩]

/-- The one store covers the tile. -/
theorem cover0_2 (p0 : Vec F S1x512 .f32) (y : S1x512.Idx) :
    ∃ pc ∈ ([⟨r0_2, p0⟩] : List (View.Piece (Elt F) S1x512 .f32)), y ∈ pc.1.set :=
  View.cover_of_tiled [⟨r0_2, p0⟩] S1x512.size (by rfl) y

/-! ## The body's triple -/

set_option maxHeartbeats 1000000 in
/-- On whole staging buffers, the inputs' holding `x0` and `x1` and the output's anything, the body runs to a state
    with the inputs' as they were and the output's at `out0_2 x0 x1`. -/
theorem sound_kernel0 (c : Dev nD) (E : Set ℕ) (i : grid0.Coords) (arg1 : Memref sig .tc .vmem S1x4096 .f32) (harg1 : arg1.IsWhole) (arg2 : Memref sig .tc .vmem S4096x512 .f32) (harg2 : arg2.IsWhole) (arg3 : Memref sig .tc .vmem S1x512 .f32) (harg3 : arg3.IsWhole)
    (x0 : Vec F S1x4096 .f32) (x1 : Vec F S4096x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__path_kernel i arg1 harg1 arg2 harg2 arg3 harg3) K := by
  simp only [cc0__path_kernel_eq_skeleton]; unfold cc0__path_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    output's at `out0_2` of the two blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program: the pallas_call that multiplies the block `x : [3, 4096]` (resident: the same
  block at every grid point) by the column tile `w[:, 512 n : 512 (n+1)] : [4096, 512]` of a `[4096, 4096]` matrix and
  scales the product by a constant, writing the `[3, 512]` tile `n` of the `[3, 4096]` result, for `n = 0 … 7`.
  Stated at a PARAMETER `V`, the buffers' contents when the region is entered, and for any float instance `F`:
  the blocks the body finds, what the body leaves in the output tile as one pure term of those blocks, the body's
  triple, the pipeline's proof data and the body obligation the launch theorem asks for.
-/
import proofs.«181552_j81286551044362_1_alg».proof.Proof.Gen.Kernel.Launch
import proofs.«181552_j81286551044362_1_alg».proof.Proof.Gen.Kernel.Skeleton
import proofs.«181552_j81286551044362_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at grid point `t`: the window's rectangle at `t` read off the window's array as the region
    finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The resident input: its staging buffer holds its block at every point (fetched at the first point, and the block
    index never moves), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The matrix tile: fetched at every point, so its staging buffer holds its block there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S3x4096 := Rect.unit (s := S3x4096) ![0, 0] S3x4096.size inb_S3x4096_S3x4096_0_0
abbrev r1_1 : Rect S4096x512 := Rect.unit (s := S4096x512) ![0, 0] S4096x512.size inb_S4096x512_S4096x512_0_0
abbrev r1_2 : Rect S3x512 := Rect.unit (s := S3x512) ![0, 0] S3x512.size inb_S3x512_S3x512_0_0

/-! ## What the body leaves in the output tile -/

/-- The output tile after the body, from the two input blocks: its one store, of the scaled product. -/
def out1_2 (x0 : Vec F S3x4096 .f32) (x1 : Vec F S4096x512 .f32) : Vec F S3x512 .f32 :=
  View.canon [⟨r1_2, k1_pay1 (View.ld x0 r1_0) (View.ld x1 r1_1)⟩]

/-- The one store covers the tile. -/
theorem cover1_2 (p0 : Vec F S3x512 .f32) (y : S3x512.Idx) :
    ∃ pc ∈ ([⟨r1_2, p0⟩] : List (View.Piece (Elt F) S3x512 .f32)), y ∈ pc.1.set :=
  View.cover_of_tiled [⟨r1_2, p0⟩] S3x512.size (by rfl) y

/-! ## The body's triple -/

set_option maxHeartbeats 1000000 in
/-- On whole staging buffers, the inputs' holding `x0` and `x1` and the output's anything, the body runs to a state
    with the inputs' as they were and the output's at `out1_2 x0 x1`. -/
theorem sound_kernel1 (c : Dev nD) (E : Set ℕ) (i : grid1.Coords) (arg1 : Memref sig .tc .vmem S3x4096 .f32) (harg1 : arg1.IsWhole) (arg2 : Memref sig .tc .vmem S4096x512 .f32) (harg2 : arg2.IsWhole) (arg3 : Memref sig .tc .vmem S3x512 .f32) (harg3 : arg3.IsWhole)
    (x0 : Vec F S3x4096 .f32) (x1 : Vec F S4096x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__path_kernel i arg1 harg1 arg2 harg2 arg3 harg3) K := by
  simp only [cc1__path_kernel_eq_skeleton]; unfold cc1__path_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point `t` each input's buffer at its block and the
    output's at `out1_2` of the two blocks; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of the program: the pallas_call that multiplies the block `x : [5, 4096]` (resident: the same
  block at every grid point) by the column tile `w[:, 512 n : 512 (n+1)] : [4096, 512]` of a `[4096, 4096]` matrix and
  scales the product by a constant, writing the `[5, 512]` tile `n` of the `[5, 4096]` result, for `n = 0 … 7`.
  Stated at a PARAMETER `V`, the buffers' contents when the region is entered, and for any float instance `F`:
  the blocks the body finds, what the body leaves in the output tile as one pure term of those blocks, the body's
  triple, the pipeline's proof data and the body obligation the launch theorem asks for.
-/
import proofs.«181552_j81286551044362_1_alg».proof.Proof.Gen.Kernel.Launch
import proofs.«181552_j81286551044362_1_alg».proof.Proof.Gen.Kernel.Skeleton
import proofs.«181552_j81286551044362_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at grid point `t`: the window's rectangle at `t` read off the window's array as the region
    finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The resident input: its staging buffer holds its block at every point (fetched at the first point, and the block
    index never moves), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The matrix tile: fetched at every point, so its staging buffer holds its block there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S5x4096 := Rect.unit (s := S5x4096) ![0, 0] S5x4096.size inb_S5x4096_S5x4096_0_0
abbrev r2_1 : Rect S4096x512 := Rect.unit (s := S4096x512) ![0, 0] S4096x512.size inb_S4096x512_S4096x512_0_0
abbrev r2_2 : Rect S5x512 := Rect.unit (s := S5x512) ![0, 0] S5x512.size inb_S5x512_S5x512_0_0

/-! ## What the body leaves in the output tile -/

/-- The output tile after the body, from the two input blocks: its one store, of the scaled product. -/
def out2_2 (x0 : Vec F S5x4096 .f32) (x1 : Vec F S4096x512 .f32) : Vec F S5x512 .f32 :=
  View.canon [⟨r2_2, k2_pay1 (View.ld x0 r2_0) (View.ld x1 r2_1)⟩]

/-- The one store covers the tile. -/
theorem cover2_2 (p0 : Vec F S5x512 .f32) (y : S5x512.Idx) :
    ∃ pc ∈ ([⟨r2_2, p0⟩] : List (View.Piece (Elt F) S5x512 .f32)), y ∈ pc.1.set :=
  View.cover_of_tiled [⟨r2_2, p0⟩] S5x512.size (by rfl) y

/-! ## The body's triple -/

set_option maxHeartbeats 1000000 in
/-- On whole staging buffers, the inputs' holding `x0` and `x1` and the output's anything, the body runs to a state
    with the inputs' as they were and the output's at `out2_2 x0 x1`. -/
theorem sound_kernel2 (c : Dev nD) (E : Set ℕ) (i : grid2.Coords) (arg1 : Memref sig .tc .vmem S5x4096 .f32) (harg1 : arg1.IsWhole) (arg2 : Memref sig .tc .vmem S4096x512 .f32) (harg2 : arg2.IsWhole) (arg3 : Memref sig .tc .vmem S5x512 .f32) (harg3 : arg3.IsWhole)
    (x0 : Vec F S5x4096 .f32) (x1 : Vec F S4096x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__path_kernel i arg1 harg1 arg2 harg2 arg3 harg3) K := by
  simp only [cc2__path_kernel_eq_skeleton]; unfold cc2__path_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each input's buffer at its block and the
    output's at `out2_2` of the two blocks; the invariant the scoped rest and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Region 3 of the program: the pallas_call that multiplies the block `x : [7, 4096]` (resident: the same
  block at every grid point) by the column tile `w[:, 512 n : 512 (n+1)] : [4096, 512]` of a `[4096, 4096]` matrix and
  scales the product by a constant, writing the `[7, 512]` tile `n` of the `[7, 4096]` result, for `n = 0 … 7`.
  Stated at a PARAMETER `V`, the buffers' contents when the region is entered, and for any float instance `F`:
  the blocks the body finds, what the body leaves in the output tile as one pure term of those blocks, the body's
  triple, the pipeline's proof data and the body obligation the launch theorem asks for.
-/
import proofs.«181552_j81286551044362_1_alg».proof.Proof.Gen.Kernel.Launch
import proofs.«181552_j81286551044362_1_alg».proof.Proof.Gen.Kernel.Skeleton
import proofs.«181552_j81286551044362_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at grid point `t`: the window's rectangle at `t` read off the window's array as the region
    finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The resident input: its staging buffer holds its block at every point (fetched at the first point, and the block
    index never moves), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The matrix tile: fetched at every point, so its staging buffer holds its block there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S7x4096 := Rect.unit (s := S7x4096) ![0, 0] S7x4096.size inb_S7x4096_S7x4096_0_0
abbrev r3_1 : Rect S4096x512 := Rect.unit (s := S4096x512) ![0, 0] S4096x512.size inb_S4096x512_S4096x512_0_0
abbrev r3_2 : Rect S7x512 := Rect.unit (s := S7x512) ![0, 0] S7x512.size inb_S7x512_S7x512_0_0

/-! ## What the body leaves in the output tile -/

/-- The output tile after the body, from the two input blocks: its one store, of the scaled product. -/
def out3_2 (x0 : Vec F S7x4096 .f32) (x1 : Vec F S4096x512 .f32) : Vec F S7x512 .f32 :=
  View.canon [⟨r3_2, k3_pay1 (View.ld x0 r3_0) (View.ld x1 r3_1)⟩]

/-- The one store covers the tile. -/
theorem cover3_2 (p0 : Vec F S7x512 .f32) (y : S7x512.Idx) :
    ∃ pc ∈ ([⟨r3_2, p0⟩] : List (View.Piece (Elt F) S7x512 .f32)), y ∈ pc.1.set :=
  View.cover_of_tiled [⟨r3_2, p0⟩] S7x512.size (by rfl) y

/-! ## The body's triple -/

set_option maxHeartbeats 1000000 in
/-- On whole staging buffers, the inputs' holding `x0` and `x1` and the output's anything, the body runs to a state
    with the inputs' as they were and the output's at `out3_2 x0 x1`. -/
theorem sound_kernel3 (c : Dev nD) (E : Set ℕ) (i : grid3.Coords) (arg1 : Memref sig .tc .vmem S7x4096 .f32) (harg1 : arg1.IsWhole) (arg2 : Memref sig .tc .vmem S4096x512 .f32) (harg2 : arg2.IsWhole) (arg3 : Memref sig .tc .vmem S7x512 .f32) (harg3 : arg3.IsWhole)
    (x0 : Vec F S7x4096 .f32) (x1 : Vec F S4096x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__path_kernel i arg1 harg1 arg2 harg2 arg3 harg3) K := by
  simp only [cc3__path_kernel_eq_skeleton]; unfold cc3__path_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The arrays as the region finds them; after the body at point `t` each input's buffer at its block and the
    output's at `out3_2` of the two blocks; the invariant the scoped rest and the generator register, untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Bounds.lean ====
/-
  The buffers' contents at every boundary of the program's run, for any float instance. The program is nine items:
  a stretch of host operations, then four times (a kernel region, a stretch of host operations). At launch core `c`
  holds the launch memory (`B0`); a host stretch applies its operations to what was there (`Bin k`, entering region
  `k`; `Bend`, the end); a region leaves its arrays at what its pipeline's write-backs fold to and every other buffer
  as entered (`Bout k`). From these: no stretch and no region writes an argument array, so both arguments reach
  every region's entry and the end as launched; and every pipeline's proof data, each at its region's entry contents.
-/
import proofs.«181552_j81286551044362_1_alg».proof.Proof.K.Region0
import proofs.«181552_j81286551044362_1_alg».proof.Proof.K.Region1
import proofs.«181552_j81286551044362_1_alg».proof.Proof.K.Region2
import proofs.«181552_j81286551044362_1_alg».proof.Proof.K.Region3
import proofs.«181552_j81286551044362_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents, boundary by boundary -/

/-- Core `c`'s buffers at launch. -/
abbrev B0 : Dev nD → Valuation τ sig (Elt F) := fun c b => m ((c : Dev nD), b)

/-! ### Region 0 -/

/-- Entering region 0: the first host stretch applied to the launch memory. -/
abbrev Bin0 : Dev nD → Valuation τ sig (Elt F) := fun c => StableHlo.after hostOps0 (B0 m c)
/-- The same read at the TensorCore's references: what region 0's proof data take. -/
abbrev Ein0 : (c : Dev nD) → (b : Ref sig .tc) → Buf (Elt F) ((c : Thread nD τ).loc b) := fun c b => Bin0 m c b
/-- Leaving region 0: its arrays at what the pipeline leaves, every other buffer as entered. -/
def Bout0 (c : Dev nD) : Valuation τ sig (Elt F) :=
  Pipeline.withArrays spec0 c (Bin0 m c) fun w => (dat0 (Ein0 m) c).arrAt w cfg0.N
theorem Bout0_arr (c : Dev nD) (w : Fin cfg0.W) :
    Bout0 m c (Proc.devRef .tc (Pipeline.arrRef spec0 w)) = (dat0 (Ein0 m) c).arrAt w cfg0.N := by
  unfold Bout0; exact Pipeline.withArrays_arr spec0 launch0.win.arr_inj c _ _ w
theorem Bout0_of_ne (c : Dev nD) (b : Ref sig .tc) (hb : ∀ w, Pipeline.arrRef spec0 w ≠ b) :
    Bout0 m c (Proc.devRef .tc b) = Bin0 m c (Proc.devRef .tc b) := by
  unfold Bout0; exact Pipeline.withArrays_of_ne spec0 c _ _ b hb
abbrev Eout0 : (c : Dev nD) → (b : Ref sig .tc) → Buf (Elt F) ((c : Thread nD τ).loc b) := fun c b => Bout0 m c b
theorem hF0 (c : Dev nD) (w : Fin cfg0.W) : (dat0 (Ein0 m) c).arrAt w cfg0.N = Eout0 m c (Pipeline.arrRef spec0 w) :=
  (Bout0_arr m c w).symm
theorem hrest0 (c : Dev nD) : ∀ b, b ∉ Finset.univ.image (Pipeline.arrRef spec0) → Eout0 m c b = Ein0 m c b :=
  fun b hb => Bout0_of_ne m c b fun w e => hb (Finset.mem_image.mpr ⟨w, Finset.mem_univ _, e⟩)
/-- A buffer the first host stretch does not write is as launched. -/
theorem Bin0_of (c : Dev nD) (r : Ref sig .tc) (h : r ∉ hostOps0_W) : Bin0 m c r = B0 m c r :=
  StableHlo.after_of_writes_sub hostOps0 _ hostOps0_writes h

/-! ### Region 1 -/

/-- Entering region 1: the second host stretch applied to what region 0 left. -/
abbrev Bin1 : Dev nD → Valuation τ sig (Elt F) := fun c => StableHlo.after hostOps1 (Bout0 m c)
abbrev Ein1 : (c : Dev nD) → (b : Ref sig .tc) → Buf (Elt F) ((c : Thread nD τ).loc b) := fun c b => Bin1 m c b
/-- Leaving region 1. -/
def Bout1 (c : Dev nD) : Valuation τ sig (Elt F) :=
  Pipeline.withArrays spec1 c (Bin1 m c) fun w => (dat1 (Ein1 m) c).arrAt w cfg1.N
theorem Bout1_arr (c : Dev nD) (w : Fin cfg1.W) :
    Bout1 m c (Proc.devRef .tc (Pipeline.arrRef spec1 w)) = (dat1 (Ein1 m) c).arrAt w cfg1.N := by
  unfold Bout1; exact Pipeline.withArrays_arr spec1 launch1.win.arr_inj c _ _ w
theorem Bout1_of_ne (c : Dev nD) (b : Ref sig .tc) (hb : ∀ w, Pipeline.arrRef spec1 w ≠ b) :
    Bout1 m c (Proc.devRef .tc b) = Bin1 m c (Proc.devRef .tc b) := by
  unfold Bout1; exact Pipeline.withArrays_of_ne spec1 c _ _ b hb
abbrev Eout1 : (c : Dev nD) → (b : Ref sig .tc) → Buf (Elt F) ((c : Thread nD τ).loc b) := fun c b => Bout1 m c b
theorem hF1 (c : Dev nD) (w : Fin cfg1.W) : (dat1 (Ein1 m) c).arrAt w cfg1.N = Eout1 m c (Pipeline.arrRef spec1 w) :=
  (Bout1_arr m c w).symm
theorem hrest1 (c : Dev nD) : ∀ b, b ∉ Finset.univ.image (Pipeline.arrRef spec1) → Eout1 m c b = Ein1 m c b :=
  fun b hb => Bout1_of_ne m c b fun w e => hb (Finset.mem_image.mpr ⟨w, Finset.mem_univ _, e⟩)
theorem Bin1_of (c : Dev nD) (r : Ref sig .tc) (h : r ∉ hostOps1_W) : Bin1 m c r = Bout0 m c r :=
  StableHlo.after_of_writes_sub hostOps1 _ hostOps1_writes h

/-! ### Region 2 -/

/-- Entering region 2: the third host stretch applied to what region 1 left. -/
abbrev Bin2 : Dev nD → Valuation τ sig (Elt F) := fun c => StableHlo.after hostOps2 (Bout1 m c)
abbrev Ein2 : (c : Dev nD) → (b : Ref sig .tc) → Buf (Elt F) ((c : Thread nD τ).loc b) := fun c b => Bin2 m c b
/-- Leaving region 2. -/
def Bout2 (c : Dev nD) : Valuation τ sig (Elt F) :=
  Pipeline.withArrays spec2 c (Bin2 m c) fun w => (dat2 (Ein2 m) c).arrAt w cfg2.N
theorem Bout2_arr (c : Dev nD) (w : Fin cfg2.W) :
    Bout2 m c (Proc.devRef .tc (Pipeline.arrRef spec2 w)) = (dat2 (Ein2 m) c).arrAt w cfg2.N := by
  unfold Bout2; exact Pipeline.withArrays_arr spec2 launch2.win.arr_inj c _ _ w
theorem Bout2_of_ne (c : Dev nD) (b : Ref sig .tc) (hb : ∀ w, Pipeline.arrRef spec2 w ≠ b) :
    Bout2 m c (Proc.devRef .tc b) = Bin2 m c (Proc.devRef .tc b) := by
  unfold Bout2; exact Pipeline.withArrays_of_ne spec2 c _ _ b hb
abbrev Eout2 : (c : Dev nD) → (b : Ref sig .tc) → Buf (Elt F) ((c : Thread nD τ).loc b) := fun c b => Bout2 m c b
theorem hF2 (c : Dev nD) (w : Fin cfg2.W) : (dat2 (Ein2 m) c).arrAt w cfg2.N = Eout2 m c (Pipeline.arrRef spec2 w) :=
  (Bout2_arr m c w).symm
theorem hrest2 (c : Dev nD) : ∀ b, b ∉ Finset.univ.image (Pipeline.arrRef spec2) → Eout2 m c b = Ein2 m c b :=
  fun b hb => Bout2_of_ne m c b fun w e => hb (Finset.mem_image.mpr ⟨w, Finset.mem_univ _, e⟩)
theorem Bin2_of (c : Dev nD) (r : Ref sig .tc) (h : r ∉ hostOps2_W) : Bin2 m c r = Bout1 m c r :=
  StableHlo.after_of_writes_sub hostOps2 _ hostOps2_writes h

/-! ### Region 3 -/

/-- Entering region 3: the fourth host stretch applied to what region 2 left. -/
abbrev Bin3 : Dev nD → Valuation τ sig (Elt F) := fun c => StableHlo.after hostOps3 (Bout2 m c)
abbrev Ein3 : (c : Dev nD) → (b : Ref sig .tc) → Buf (Elt F) ((c : Thread nD τ).loc b) := fun c b => Bin3 m c b
/-- Leaving region 3. -/
def Bout3 (c : Dev nD) : Valuation τ sig (Elt F) :=
  Pipeline.withArrays spec3 c (Bin3 m c) fun w => (dat3 (Ein3 m) c).arrAt w cfg3.N
theorem Bout3_arr (c : Dev nD) (w : Fin cfg3.W) :
    Bout3 m c (Proc.devRef .tc (Pipeline.arrRef spec3 w)) = (dat3 (Ein3 m) c).arrAt w cfg3.N := by
  unfold Bout3; exact Pipeline.withArrays_arr spec3 launch3.win.arr_inj c _ _ w
theorem Bout3_of_ne (c : Dev nD) (b : Ref sig .tc) (hb : ∀ w, Pipeline.arrRef spec3 w ≠ b) :
    Bout3 m c (Proc.devRef .tc b) = Bin3 m c (Proc.devRef .tc b) := by
  unfold Bout3; exact Pipeline.withArrays_of_ne spec3 c _ _ b hb
abbrev Eout3 : (c : Dev nD) → (b : Ref sig .tc) → Buf (Elt F) ((c : Thread nD τ).loc b) := fun c b => Bout3 m c b
theorem hF3 (c : Dev nD) (w : Fin cfg3.W) : (dat3 (Ein3 m) c).arrAt w cfg3.N = Eout3 m c (Pipeline.arrRef spec3 w) :=
  (Bout3_arr m c w).symm
theorem hrest3 (c : Dev nD) : ∀ b, b ∉ Finset.univ.image (Pipeline.arrRef spec3) → Eout3 m c b = Ein3 m c b :=
  fun b hb => Bout3_of_ne m c b fun w e => hb (Finset.mem_image.mpr ⟨w, Finset.mem_univ _, e⟩)
theorem Bin3_of (c : Dev nD) (r : Ref sig .tc) (h : r ∉ hostOps3_W) : Bin3 m c r = Bout2 m c r :=
  StableHlo.after_of_writes_sub hostOps3 _ hostOps3_writes h

/-! ### The end -/

/-- At the end: the last host stretch applied to what region 3 left. -/
abbrev Bend : Dev nD → Valuation τ sig (Elt F) := fun c => StableHlo.after hostOps4 (Bout3 m c)
theorem Bend_of (c : Dev nD) (r : Ref sig .tc) (h : r ∉ hostOps4_W) : Bend m c r = Bout3 m c r :=
  StableHlo.after_of_writes_sub hostOps4 _ hostOps4_writes h

/-! ## The arguments are never written -/

/-- A buffer that is no array of a region and that no host stretch writes holds its launch contents wherever it is
    read: stated once for a reference `r`, used for the two arguments. -/
theorem kept_everywhere (c : Dev nD) (r : Ref sig .tc)
    (h0 : r ∉ hostOps0_W) (h1 : r ∉ hostOps1_W) (h2 : r ∉ hostOps2_W) (h3 : r ∉ hostOps3_W) (h4 : r ∉ hostOps4_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) :
    Bin0 m c r = B0 m c r ∧ Bin1 m c r = B0 m c r ∧ Bin2 m c r = B0 m c r ∧ Bin3 m c r = B0 m c r ∧ Bend m c r = B0 m c r := by
  have e0 : Bin0 m c r = B0 m c r := Bin0_of m c r h0
  have e1 : Bin1 m c r = B0 m c r := (Bin1_of m c r h1).trans ((Bout0_of_ne m c r a0).trans e0)
  have e2 : Bin2 m c r = B0 m c r := (Bin2_of m c r h2).trans ((Bout1_of_ne m c r a1).trans e1)
  have e3 : Bin3 m c r = B0 m c r := (Bin3_of m c r h3).trans ((Bout2_of_ne m c r a2).trans e2)
  exact ⟨e0, e1, e2, e3, (Bend_of m c r h4).trans ((Bout3_of_ne m c r a3).trans e3)⟩

theorem kept_arg0 (c : Dev nD) :
    Bin0 m c main_arg0 = B0 m c main_arg0 ∧ Bin1 m c main_arg0 = B0 m c main_arg0 ∧ Bin2 m c main_arg0 = B0 m c main_arg0
      ∧ Bin3 m c main_arg0 = B0 m c main_arg0 ∧ Bend m c main_arg0 = B0 m c main_arg0 :=
  kept_everywhere m c main_arg0 (by decide) (by decide) (by decide) (by decide) (by decide) (by decide) (by decide) (by decide) (by decide)

theorem kept_arg1 (c : Dev nD) :
    Bin0 m c main_arg1 = B0 m c main_arg1 ∧ Bin1 m c main_arg1 = B0 m c main_arg1 ∧ Bin2 m c main_arg1 = B0 m c main_arg1
      ∧ Bin3 m c main_arg1 = B0 m c main_arg1 ∧ Bend m c main_arg1 = B0 m c main_arg1 :=
  kept_everywhere m c main_arg1 (by decide) (by decide) (by decide) (by decide) (by decide) (by decide) (by decide) (by decide) (by decide)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Ein0 m) c
  | ⟨1, _⟩ => fun c => dat1 (Ein1 m) c
  | ⟨2, _⟩ => fun c => dat2 (Ein2 m) c
  | ⟨3, _⟩ => fun c => dat3 (Ein3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- A host stretch as an item of the run, over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Seg0.lean ====
/-
  Region 0 as an item of the run: entered from every unscoped buffer at its entry contents `Bin0`, left at its exit
  contents `Bout0`. Its arrays are split out of the unscoped buffers at entry and put back at what the pipeline leaves
  at exit; the generator register goes into the pipeline's invariant and comes back; nothing is owed; the kernel has no
  semaphore of its own.
-/
import proofs.«181552_j81286551044362_1_alg».proof.Proof.K.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ein0 m) c).loose
  hwaits := Pipeline.hwaits_of_owed_zero _ _ _ _ L lv 0 fun _ _ => rfl
  pre c := iprop(StableHlo.held (c : Thread nD τ) (Pipeline.ucRefs τ sig) (Bin0 m c) ∗ R c)
  post c := iprop(StableHlo.held (c : Thread nD τ) (Pipeline.ucRefs τ sig) (Bout0 m c) ∗ R c)
  X c := iprop(∃ r, prngReg c r)
  Y c := iprop(∃ r, prngReg c r)
  Z c := Pipeline.unscopedRest (Ix := Unit) (Name := ℕ) (U := UR sig nD τ) (Lvl := ℕ) spec0 c (Ein0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ein0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ein0 m c) (Eout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/-
  Region 1 as an item of the run: entered from every unscoped buffer at its entry contents `Bin1`, left at its exit
  contents `Bout1`. Its arrays are split out of the unscoped buffers at entry and put back at what the pipeline leaves
  at exit; the generator register goes into the pipeline's invariant and comes back; nothing is owed; the kernel has no
  semaphore of its own.
-/
import proofs.«181552_j81286551044362_1_alg».proof.Proof.K.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ein1 m) c).loose
  hwaits := Pipeline.hwaits_of_owed_zero _ _ _ _ L lv 1 fun _ _ => rfl
  pre c := iprop(StableHlo.held (c : Thread nD τ) (Pipeline.ucRefs τ sig) (Bin1 m c) ∗ R c)
  post c := iprop(StableHlo.held (c : Thread nD τ) (Pipeline.ucRefs τ sig) (Bout1 m c) ∗ R c)
  X c := iprop(∃ r, prngReg c r)
  Y c := iprop(∃ r, prngReg c r)
  Z c := Pipeline.unscopedRest (Ix := Unit) (Name := ℕ) (U := UR sig nD τ) (Lvl := ℕ) spec1 c (Ein1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ein1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ein1 m c) (Eout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/-
  Region 2 as an item of the run: entered from every unscoped buffer at its entry contents `Bin2`, left at its exit
  contents `Bout2`. Its arrays are split out of the unscoped buffers at entry and put back at what the pipeline leaves
  at exit; the generator register goes into the pipeline's invariant and comes back; nothing is owed; the kernel has no
  semaphore of its own.
-/
import proofs.«181552_j81286551044362_1_alg».proof.Proof.K.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ein2 m) c).loose
  hwaits := Pipeline.hwaits_of_owed_zero _ _ _ _ L lv 2 fun _ _ => rfl
  pre c := iprop(StableHlo.held (c : Thread nD τ) (Pipeline.ucRefs τ sig) (Bin2 m c) ∗ R c)
  post c := iprop(StableHlo.held (c : Thread nD τ) (Pipeline.ucRefs τ sig) (Bout2 m c) ∗ R c)
  X c := iprop(∃ r, prngReg c r)
  Y c := iprop(∃ r, prngReg c r)
  Z c := Pipeline.unscopedRest (Ix := Unit) (Name := ℕ) (U := UR sig nD τ) (Lvl := ℕ) spec2 c (Ein2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ein2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ein2 m c) (Eout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/-
  Region 3 as an item of the run: entered from every unscoped buffer at its entry contents `Bin3`, left at its exit
  contents `Bout3`. Its arrays are split out of the unscoped buffers at entry and put back at what the pipeline leaves
  at exit; the generator register goes into the pipeline's invariant and comes back; nothing is owed; the kernel has no
  semaphore of its own.
-/
import proofs.«181552_j81286551044362_1_alg».proof.Proof.K.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ein3 m) c).loose
  hwaits := Pipeline.hwaits_of_owed_zero _ _ _ _ L lv 3 fun _ _ => rfl
  pre c := iprop(StableHlo.held (c : Thread nD τ) (Pipeline.ucRefs τ sig) (Bin3 m c) ∗ R c)
  post c := iprop(StableHlo.held (c : Thread nD τ) (Pipeline.ucRefs τ sig) (Bout3 m c) ∗ R c)
  X c := iprop(∃ r, prngReg c r)
  Y c := iprop(∃ r, prngReg c r)
  Z c := Pipeline.unscopedRest (Ix := Unit) (Name := ℕ) (U := UR sig nD τ) (Lvl := ℕ) spec3 c (Ein3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Ein3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Ein3 m c) (Eout3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Launch.lean ====
/-
  The run of the whole program, for any float instance: @main is its nine items in order (five host stretches, four
  kernel regions), each entered from what the one before left, so every weakly fair execution from any memory with zero
  counters terminates, nothing faulting, and at the end every unscoped buffer of core `c` holds `Bend m c`: the fold
  of the host stretches and the regions' write-backs from the launch memory. The frame claim follows: both arguments
  are read back as launched.
-/
import proofs.«181552_j81286551044362_1_alg».proof.Proof.K.Seg0
import proofs.«181552_j81286551044362_1_alg».proof.Proof.K.Seg1
import proofs.«181552_j81286551044362_1_alg».proof.Proof.K.Seg2
import proofs.«181552_j81286551044362_1_alg».proof.Proof.K.Seg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's nine items in order: a host item per stretch from its boundary's contents, a region per pallas_call. -/
abbrev items : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (Bout0 m)),
    .region (reg1 m),
    .host (hseg hostOps2 hostOps2_sub hostOps2_fresh (Bout1 m)),
    .region (reg2 m),
    .host (hseg hostOps3 hostOps3_sub hostOps3_fresh (Bout2 m)),
    .region (reg3 m),
    .host (hseg hostOps4 hostOps4_sub hostOps4_fresh (Bout3 m)) ]

/-- @main IS the run of the items. -/
theorem main_run (c : Dev nD) : main (F := F) c = Pipeline.Seg.run (items m) :=
  main_segs adm (pdats m) () 𝒱₀ L lv _ _ _ _ _ (reg0 m) (reg1 m) (reg2 m) (reg3 m) rfl rfl rfl rfl rfl c

-- the launch theorem's implicit arguments are found by unifying its conclusion with this one, which takes unfolding
-- plain definitions in a metavariable's type
set_option backward.isDefEq.respectTransparency.types false in
/-- THE RUN: every weakly fair execution terminates, and every final memory holds every unscoped buffer at `Bend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bend m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => StableHlo.held (c : Thread nD τ) (Pipeline.ucRefs τ sig) (Bend m c))
    (hch := ⟨fun _ => .rfl, fun _ => .rfl, fun _ => .rfl, fun _ => .rfl, fun _ => .rfl, fun _ => .rfl, fun _ => .rfl,
      fun _ => .rfl, fun _ => .rfl, fun c => by
        show (iprop(StableHlo.held (c : Thread nD τ) (Pipeline.ucRefs τ sig) (Bend m c) ∗ R c) : sProp 𝕄) ⊢ _
        iintro ⟨Hh, -, HO⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bend m c b)
    (hfin := fun c s' => by
      iintro ⟨Hh, HSI⟩
      unfold StableHlo.held
      imodintro
      iapply (pointsTo_read_all (Pipeline.ucRefs τ sig) (fun b => (((c : Thread nD τ)).1, b)) (Bend m c) s')
      isplitl [Hh] <;> iassumption)
    (hQ := fun s h c => h c)

/-- THE FRAME: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (kept_arg0 m c).2.2.2.2,
     (h c _ (mem_uc main_arg1 (by decide))).trans (kept_arg1 m c).2.2.2.2⟩) (run_all m ρ)

end Cert.Kernel.Hand

end
-- ==== Proof.KI.Region0.lean ====
/-
  Region 0 of the program: the pallas_call that multiplies the block `x : [1, 4096]` (resident: the same
  block at every grid point) by the column tile `w[:, 512 n : 512 (n+1)] : [4096, 512]` of a `[4096, 4096]` matrix and
  scales the product by a constant, writing the `[1, 512]` tile `n` of the `[1, 4096]` result, for `n = 0 … 7`.
  Stated at a PARAMETER `V`, the buffers' contents when the region is entered, and for any float instance `F`:
  the blocks the body finds, what the body leaves in the output tile as one pure term of those blocks, the body's
  triple, the pipeline's proof data and the body obligation the launch theorem asks for.
-/
import proofs.«181552_j81286551044362_1_alg».proof.Proof.Gen.KernelIdeal.Launch
import proofs.«181552_j81286551044362_1_alg».proof.Proof.Gen.KernelIdeal.Skeleton
import proofs.«181552_j81286551044362_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at grid point `t`: the window's rectangle at `t` read off the window's array as the region
    finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The resident input: its staging buffer holds its block at every point (fetched at the first point, and the block
    index never moves), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix tile: fetched at every point, so its staging buffer holds its block there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x4096 := Rect.unit (s := S1x4096) ![0, 0] S1x4096.size inb_S1x4096_S1x4096_0_0
abbrev r0_1 : Rect S4096x512 := Rect.unit (s := S4096x512) ![0, 0] S4096x512.size inb_S4096x512_S4096x512_0_0
abbrev r0_2 : Rect S1x512 := Rect.unit (s := S1x512) ![0, 0] S1x512.size inb_S1x512_S1x512_0_0

/-! ## What the body leaves in the output tile -/

/-- The output tile after the body, from the two input blocks: its one store, of the scaled product. -/
def out0_2 (x0 : Vec F S1x4096 .f32) (x1 : Vec F S4096x512 .f32) : Vec F S1x512 .f32 :=
  View.canon [⟨r0_2, k0_pay1 (View.ld x0 r0_0) (View.ld x1 r0_1)⟩]

/-- The one store covers the tile. -/
theorem cover0_2 (p0 : Vec F S1x512 .f32) (y : S1x512.Idx) :
    ∃ pc ∈ ([⟨r0_2, p0⟩] : List (View.Piece (Elt F) S1x512 .f32)), y ∈ pc.1.set :=
  View.cover_of_tiled [⟨r0_2, p0⟩] S1x512.size (by rfl) y

/-! ## The body's triple -/

set_option maxHeartbeats 1000000 in
/-- On whole staging buffers, the inputs' holding `x0` and `x1` and the output's anything, the body runs to a state
    with the inputs' as they were and the output's at `out0_2 x0 x1`. -/
theorem sound_kernel0 (c : Dev nD) (E : Set ℕ) (i : grid0.Coords) (arg1 : Memref sig .tc .vmem S1x4096 .f32) (harg1 : arg1.IsWhole) (arg2 : Memref sig .tc .vmem S4096x512 .f32) (harg2 : arg2.IsWhole) (arg3 : Memref sig .tc .vmem S1x512 .f32) (harg3 : arg3.IsWhole)
    (x0 : Vec F S1x4096 .f32) (x1 : Vec F S4096x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__path_kernel i arg1 harg1 arg2 harg2 arg3 harg3) K := by
  simp only [cc0__path_kernel_eq_skeleton]; unfold cc0__path_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the
    output's at `out0_2` of the two blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program: the pallas_call that multiplies the block `x : [3, 4096]` (resident: the same
  block at every grid point) by the column tile `w[:, 512 n : 512 (n+1)] : [4096, 512]` of a `[4096, 4096]` matrix and
  scales the product by a constant, writing the `[3, 512]` tile `n` of the `[3, 4096]` result, for `n = 0 … 7`.
  Stated at a PARAMETER `V`, the buffers' contents when the region is entered, and for any float instance `F`:
  the blocks the body finds, what the body leaves in the output tile as one pure term of those blocks, the body's
  triple, the pipeline's proof data and the body obligation the launch theorem asks for.
-/
import proofs.«181552_j81286551044362_1_alg».proof.Proof.Gen.KernelIdeal.Launch
import proofs.«181552_j81286551044362_1_alg».proof.Proof.Gen.KernelIdeal.Skeleton
import proofs.«181552_j81286551044362_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at grid point `t`: the window's rectangle at `t` read off the window's array as the region
    finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The resident input: its staging buffer holds its block at every point (fetched at the first point, and the block
    index never moves), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The matrix tile: fetched at every point, so its staging buffer holds its block there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S3x4096 := Rect.unit (s := S3x4096) ![0, 0] S3x4096.size inb_S3x4096_S3x4096_0_0
abbrev r1_1 : Rect S4096x512 := Rect.unit (s := S4096x512) ![0, 0] S4096x512.size inb_S4096x512_S4096x512_0_0
abbrev r1_2 : Rect S3x512 := Rect.unit (s := S3x512) ![0, 0] S3x512.size inb_S3x512_S3x512_0_0

/-! ## What the body leaves in the output tile -/

/-- The output tile after the body, from the two input blocks: its one store, of the scaled product. -/
def out1_2 (x0 : Vec F S3x4096 .f32) (x1 : Vec F S4096x512 .f32) : Vec F S3x512 .f32 :=
  View.canon [⟨r1_2, k1_pay1 (View.ld x0 r1_0) (View.ld x1 r1_1)⟩]

/-- The one store covers the tile. -/
theorem cover1_2 (p0 : Vec F S3x512 .f32) (y : S3x512.Idx) :
    ∃ pc ∈ ([⟨r1_2, p0⟩] : List (View.Piece (Elt F) S3x512 .f32)), y ∈ pc.1.set :=
  View.cover_of_tiled [⟨r1_2, p0⟩] S3x512.size (by rfl) y

/-! ## The body's triple -/

set_option maxHeartbeats 1000000 in
/-- On whole staging buffers, the inputs' holding `x0` and `x1` and the output's anything, the body runs to a state
    with the inputs' as they were and the output's at `out1_2 x0 x1`. -/
theorem sound_kernel1 (c : Dev nD) (E : Set ℕ) (i : grid1.Coords) (arg1 : Memref sig .tc .vmem S3x4096 .f32) (harg1 : arg1.IsWhole) (arg2 : Memref sig .tc .vmem S4096x512 .f32) (harg2 : arg2.IsWhole) (arg3 : Memref sig .tc .vmem S3x512 .f32) (harg3 : arg3.IsWhole)
    (x0 : Vec F S3x4096 .f32) (x1 : Vec F S4096x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__path_kernel i arg1 harg1 arg2 harg2 arg3 harg3) K := by
  simp only [cc1__path_kernel_eq_skeleton]; unfold cc1__path_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point `t` each input's buffer at its block and the
    output's at `out1_2` of the two blocks; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the program: the pallas_call that multiplies the block `x : [5, 4096]` (resident: the same
  block at every grid point) by the column tile `w[:, 512 n : 512 (n+1)] : [4096, 512]` of a `[4096, 4096]` matrix and
  scales the product by a constant, writing the `[5, 512]` tile `n` of the `[5, 4096]` result, for `n = 0 … 7`.
  Stated at a PARAMETER `V`, the buffers' contents when the region is entered, and for any float instance `F`:
  the blocks the body finds, what the body leaves in the output tile as one pure term of those blocks, the body's
  triple, the pipeline's proof data and the body obligation the launch theorem asks for.
-/
import proofs.«181552_j81286551044362_1_alg».proof.Proof.Gen.KernelIdeal.Launch
import proofs.«181552_j81286551044362_1_alg».proof.Proof.Gen.KernelIdeal.Skeleton
import proofs.«181552_j81286551044362_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at grid point `t`: the window's rectangle at `t` read off the window's array as the region
    finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The resident input: its staging buffer holds its block at every point (fetched at the first point, and the block
    index never moves), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The matrix tile: fetched at every point, so its staging buffer holds its block there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S5x4096 := Rect.unit (s := S5x4096) ![0, 0] S5x4096.size inb_S5x4096_S5x4096_0_0
abbrev r2_1 : Rect S4096x512 := Rect.unit (s := S4096x512) ![0, 0] S4096x512.size inb_S4096x512_S4096x512_0_0
abbrev r2_2 : Rect S5x512 := Rect.unit (s := S5x512) ![0, 0] S5x512.size inb_S5x512_S5x512_0_0

/-! ## What the body leaves in the output tile -/

/-- The output tile after the body, from the two input blocks: its one store, of the scaled product. -/
def out2_2 (x0 : Vec F S5x4096 .f32) (x1 : Vec F S4096x512 .f32) : Vec F S5x512 .f32 :=
  View.canon [⟨r2_2, k2_pay1 (View.ld x0 r2_0) (View.ld x1 r2_1)⟩]

/-- The one store covers the tile. -/
theorem cover2_2 (p0 : Vec F S5x512 .f32) (y : S5x512.Idx) :
    ∃ pc ∈ ([⟨r2_2, p0⟩] : List (View.Piece (Elt F) S5x512 .f32)), y ∈ pc.1.set :=
  View.cover_of_tiled [⟨r2_2, p0⟩] S5x512.size (by rfl) y

/-! ## The body's triple -/

set_option maxHeartbeats 1000000 in
/-- On whole staging buffers, the inputs' holding `x0` and `x1` and the output's anything, the body runs to a state
    with the inputs' as they were and the output's at `out2_2 x0 x1`. -/
theorem sound_kernel2 (c : Dev nD) (E : Set ℕ) (i : grid2.Coords) (arg1 : Memref sig .tc .vmem S5x4096 .f32) (harg1 : arg1.IsWhole) (arg2 : Memref sig .tc .vmem S4096x512 .f32) (harg2 : arg2.IsWhole) (arg3 : Memref sig .tc .vmem S5x512 .f32) (harg3 : arg3.IsWhole)
    (x0 : Vec F S5x4096 .f32) (x1 : Vec F S4096x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__path_kernel i arg1 harg1 arg2 harg2 arg3 harg3) K := by
  simp only [cc2__path_kernel_eq_skeleton]; unfold cc2__path_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each input's buffer at its block and the
    output's at `out2_2` of the two blocks; the invariant the scoped rest and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of the program: the pallas_call that multiplies the block `x : [7, 4096]` (resident: the same
  block at every grid point) by the column tile `w[:, 512 n : 512 (n+1)] : [4096, 512]` of a `[4096, 4096]` matrix and
  scales the product by a constant, writing the `[7, 512]` tile `n` of the `[7, 4096]` result, for `n = 0 … 7`.
  Stated at a PARAMETER `V`, the buffers' contents when the region is entered, and for any float instance `F`:
  the blocks the body finds, what the body leaves in the output tile as one pure term of those blocks, the body's
  triple, the pipeline's proof data and the body obligation the launch theorem asks for.
-/
import proofs.«181552_j81286551044362_1_alg».proof.Proof.Gen.KernelIdeal.Launch
import proofs.«181552_j81286551044362_1_alg».proof.Proof.Gen.KernelIdeal.Skeleton
import proofs.«181552_j81286551044362_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at grid point `t`: the window's rectangle at `t` read off the window's array as the region
    finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The resident input: its staging buffer holds its block at every point (fetched at the first point, and the block
    index never moves), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The matrix tile: fetched at every point, so its staging buffer holds its block there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S7x4096 := Rect.unit (s := S7x4096) ![0, 0] S7x4096.size inb_S7x4096_S7x4096_0_0
abbrev r3_1 : Rect S4096x512 := Rect.unit (s := S4096x512) ![0, 0] S4096x512.size inb_S4096x512_S4096x512_0_0
abbrev r3_2 : Rect S7x512 := Rect.unit (s := S7x512) ![0, 0] S7x512.size inb_S7x512_S7x512_0_0

/-! ## What the body leaves in the output tile -/

/-- The output tile after the body, from the two input blocks: its one store, of the scaled product. -/
def out3_2 (x0 : Vec F S7x4096 .f32) (x1 : Vec F S4096x512 .f32) : Vec F S7x512 .f32 :=
  View.canon [⟨r3_2, k3_pay1 (View.ld x0 r3_0) (View.ld x1 r3_1)⟩]

/-- The one store covers the tile. -/
theorem cover3_2 (p0 : Vec F S7x512 .f32) (y : S7x512.Idx) :
    ∃ pc ∈ ([⟨r3_2, p0⟩] : List (View.Piece (Elt F) S7x512 .f32)), y ∈ pc.1.set :=
  View.cover_of_tiled [⟨r3_2, p0⟩] S7x512.size (by rfl) y

/-! ## The body's triple -/

set_option maxHeartbeats 1000000 in
/-- On whole staging buffers, the inputs' holding `x0` and `x1` and the output's anything, the body runs to a state
    with the inputs' as they were and the output's at `out3_2 x0 x1`. -/
theorem sound_kernel3 (c : Dev nD) (E : Set ℕ) (i : grid3.Coords) (arg1 : Memref sig .tc .vmem S7x4096 .f32) (harg1 : arg1.IsWhole) (arg2 : Memref sig .tc .vmem S4096x512 .f32) (harg2 : arg2.IsWhole) (arg3 : Memref sig .tc .vmem S7x512 .f32) (harg3 : arg3.IsWhole)
    (x0 : Vec F S7x4096 .f32) (x1 : Vec F S4096x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__path_kernel i arg1 harg1 arg2 harg2 arg3 harg3) K := by
  simp only [cc3__path_kernel_eq_skeleton]; unfold cc3__path_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The arrays as the region finds them; after the body at point `t` each input's buffer at its block and the
    output's at `out3_2` of the two blocks; the invariant the scoped rest and the generator register, untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Bounds.lean ====
/-
  The buffers' contents at every boundary of the program's run, for any float instance. The program is nine items:
  a stretch of host operations, then four times (a kernel region, a stretch of host operations). At launch core `c`
  holds the launch memory (`B0`); a host stretch applies its operations to what was there (`Bin k`, entering region
  `k`; `Bend`, the end); a region leaves its arrays at what its pipeline's write-backs fold to and every other buffer
  as entered (`Bout k`). From these: no stretch and no region writes an argument array, so both arguments reach
  every region's entry and the end as launched; and every pipeline's proof data, each at its region's entry contents.
-/
import proofs.«181552_j81286551044362_1_alg».proof.Proof.KI.Region0
import proofs.«181552_j81286551044362_1_alg».proof.Proof.KI.Region1
import proofs.«181552_j81286551044362_1_alg».proof.Proof.KI.Region2
import proofs.«181552_j81286551044362_1_alg».proof.Proof.KI.Region3
import proofs.«181552_j81286551044362_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents, boundary by boundary -/

/-- Core `c`'s buffers at launch. -/
abbrev B0 : Dev nD → Valuation τ sig (Elt F) := fun c b => m ((c : Dev nD), b)

/-! ### Region 0 -/

/-- Entering region 0: the first host stretch applied to the launch memory. -/
abbrev Bin0 : Dev nD → Valuation τ sig (Elt F) := fun c => StableHlo.after hostOps0 (B0 m c)
/-- The same read at the TensorCore's references: what region 0's proof data take. -/
abbrev Ein0 : (c : Dev nD) → (b : Ref sig .tc) → Buf (Elt F) ((c : Thread nD τ).loc b) := fun c b => Bin0 m c b
/-- Leaving region 0: its arrays at what the pipeline leaves, every other buffer as entered. -/
def Bout0 (c : Dev nD) : Valuation τ sig (Elt F) :=
  Pipeline.withArrays spec0 c (Bin0 m c) fun w => (dat0 (Ein0 m) c).arrAt w cfg0.N
theorem Bout0_arr (c : Dev nD) (w : Fin cfg0.W) :
    Bout0 m c (Proc.devRef .tc (Pipeline.arrRef spec0 w)) = (dat0 (Ein0 m) c).arrAt w cfg0.N := by
  unfold Bout0; exact Pipeline.withArrays_arr spec0 launch0.win.arr_inj c _ _ w
theorem Bout0_of_ne (c : Dev nD) (b : Ref sig .tc) (hb : ∀ w, Pipeline.arrRef spec0 w ≠ b) :
    Bout0 m c (Proc.devRef .tc b) = Bin0 m c (Proc.devRef .tc b) := by
  unfold Bout0; exact Pipeline.withArrays_of_ne spec0 c _ _ b hb
abbrev Eout0 : (c : Dev nD) → (b : Ref sig .tc) → Buf (Elt F) ((c : Thread nD τ).loc b) := fun c b => Bout0 m c b
theorem hF0 (c : Dev nD) (w : Fin cfg0.W) : (dat0 (Ein0 m) c).arrAt w cfg0.N = Eout0 m c (Pipeline.arrRef spec0 w) :=
  (Bout0_arr m c w).symm
theorem hrest0 (c : Dev nD) : ∀ b, b ∉ Finset.univ.image (Pipeline.arrRef spec0) → Eout0 m c b = Ein0 m c b :=
  fun b hb => Bout0_of_ne m c b fun w e => hb (Finset.mem_image.mpr ⟨w, Finset.mem_univ _, e⟩)
/-- A buffer the first host stretch does not write is as launched. -/
theorem Bin0_of (c : Dev nD) (r : Ref sig .tc) (h : r ∉ hostOps0_W) : Bin0 m c r = B0 m c r :=
  StableHlo.after_of_writes_sub hostOps0 _ hostOps0_writes h

/-! ### Region 1 -/

/-- Entering region 1: the second host stretch applied to what region 0 left. -/
abbrev Bin1 : Dev nD → Valuation τ sig (Elt F) := fun c => StableHlo.after hostOps1 (Bout0 m c)
abbrev Ein1 : (c : Dev nD) → (b : Ref sig .tc) → Buf (Elt F) ((c : Thread nD τ).loc b) := fun c b => Bin1 m c b
/-- Leaving region 1. -/
def Bout1 (c : Dev nD) : Valuation τ sig (Elt F) :=
  Pipeline.withArrays spec1 c (Bin1 m c) fun w => (dat1 (Ein1 m) c).arrAt w cfg1.N
theorem Bout1_arr (c : Dev nD) (w : Fin cfg1.W) :
    Bout1 m c (Proc.devRef .tc (Pipeline.arrRef spec1 w)) = (dat1 (Ein1 m) c).arrAt w cfg1.N := by
  unfold Bout1; exact Pipeline.withArrays_arr spec1 launch1.win.arr_inj c _ _ w
theorem Bout1_of_ne (c : Dev nD) (b : Ref sig .tc) (hb : ∀ w, Pipeline.arrRef spec1 w ≠ b) :
    Bout1 m c (Proc.devRef .tc b) = Bin1 m c (Proc.devRef .tc b) := by
  unfold Bout1; exact Pipeline.withArrays_of_ne spec1 c _ _ b hb
abbrev Eout1 : (c : Dev nD) → (b : Ref sig .tc) → Buf (Elt F) ((c : Thread nD τ).loc b) := fun c b => Bout1 m c b
theorem hF1 (c : Dev nD) (w : Fin cfg1.W) : (dat1 (Ein1 m) c).arrAt w cfg1.N = Eout1 m c (Pipeline.arrRef spec1 w) :=
  (Bout1_arr m c w).symm
theorem hrest1 (c : Dev nD) : ∀ b, b ∉ Finset.univ.image (Pipeline.arrRef spec1) → Eout1 m c b = Ein1 m c b :=
  fun b hb => Bout1_of_ne m c b fun w e => hb (Finset.mem_image.mpr ⟨w, Finset.mem_univ _, e⟩)
theorem Bin1_of (c : Dev nD) (r : Ref sig .tc) (h : r ∉ hostOps1_W) : Bin1 m c r = Bout0 m c r :=
  StableHlo.after_of_writes_sub hostOps1 _ hostOps1_writes h

/-! ### Region 2 -/

/-- Entering region 2: the third host stretch applied to what region 1 left. -/
abbrev Bin2 : Dev nD → Valuation τ sig (Elt F) := fun c => StableHlo.after hostOps2 (Bout1 m c)
abbrev Ein2 : (c : Dev nD) → (b : Ref sig .tc) → Buf (Elt F) ((c : Thread nD τ).loc b) := fun c b => Bin2 m c b
/-- Leaving region 2. -/
def Bout2 (c : Dev nD) : Valuation τ sig (Elt F) :=
  Pipeline.withArrays spec2 c (Bin2 m c) fun w => (dat2 (Ein2 m) c).arrAt w cfg2.N
theorem Bout2_arr (c : Dev nD) (w : Fin cfg2.W) :
    Bout2 m c (Proc.devRef .tc (Pipeline.arrRef spec2 w)) = (dat2 (Ein2 m) c).arrAt w cfg2.N := by
  unfold Bout2; exact Pipeline.withArrays_arr spec2 launch2.win.arr_inj c _ _ w
theorem Bout2_of_ne (c : Dev nD) (b : Ref sig .tc) (hb : ∀ w, Pipeline.arrRef spec2 w ≠ b) :
    Bout2 m c (Proc.devRef .tc b) = Bin2 m c (Proc.devRef .tc b) := by
  unfold Bout2; exact Pipeline.withArrays_of_ne spec2 c _ _ b hb
abbrev Eout2 : (c : Dev nD) → (b : Ref sig .tc) → Buf (Elt F) ((c : Thread nD τ).loc b) := fun c b => Bout2 m c b
theorem hF2 (c : Dev nD) (w : Fin cfg2.W) : (dat2 (Ein2 m) c).arrAt w cfg2.N = Eout2 m c (Pipeline.arrRef spec2 w) :=
  (Bout2_arr m c w).symm
theorem hrest2 (c : Dev nD) : ∀ b, b ∉ Finset.univ.image (Pipeline.arrRef spec2) → Eout2 m c b = Ein2 m c b :=
  fun b hb => Bout2_of_ne m c b fun w e => hb (Finset.mem_image.mpr ⟨w, Finset.mem_univ _, e⟩)
theorem Bin2_of (c : Dev nD) (r : Ref sig .tc) (h : r ∉ hostOps2_W) : Bin2 m c r = Bout1 m c r :=
  StableHlo.after_of_writes_sub hostOps2 _ hostOps2_writes h

/-! ### Region 3 -/

/-- Entering region 3: the fourth host stretch applied to what region 2 left. -/
abbrev Bin3 : Dev nD → Valuation τ sig (Elt F) := fun c => StableHlo.after hostOps3 (Bout2 m c)
abbrev Ein3 : (c : Dev nD) → (b : Ref sig .tc) → Buf (Elt F) ((c : Thread nD τ).loc b) := fun c b => Bin3 m c b
/-- Leaving region 3. -/
def Bout3 (c : Dev nD) : Valuation τ sig (Elt F) :=
  Pipeline.withArrays spec3 c (Bin3 m c) fun w => (dat3 (Ein3 m) c).arrAt w cfg3.N
theorem Bout3_arr (c : Dev nD) (w : Fin cfg3.W) :
    Bout3 m c (Proc.devRef .tc (Pipeline.arrRef spec3 w)) = (dat3 (Ein3 m) c).arrAt w cfg3.N := by
  unfold Bout3; exact Pipeline.withArrays_arr spec3 launch3.win.arr_inj c _ _ w
theorem Bout3_of_ne (c : Dev nD) (b : Ref sig .tc) (hb : ∀ w, Pipeline.arrRef spec3 w ≠ b) :
    Bout3 m c (Proc.devRef .tc b) = Bin3 m c (Proc.devRef .tc b) := by
  unfold Bout3; exact Pipeline.withArrays_of_ne spec3 c _ _ b hb
abbrev Eout3 : (c : Dev nD) → (b : Ref sig .tc) → Buf (Elt F) ((c : Thread nD τ).loc b) := fun c b => Bout3 m c b
theorem hF3 (c : Dev nD) (w : Fin cfg3.W) : (dat3 (Ein3 m) c).arrAt w cfg3.N = Eout3 m c (Pipeline.arrRef spec3 w) :=
  (Bout3_arr m c w).symm
theorem hrest3 (c : Dev nD) : ∀ b, b ∉ Finset.univ.image (Pipeline.arrRef spec3) → Eout3 m c b = Ein3 m c b :=
  fun b hb => Bout3_of_ne m c b fun w e => hb (Finset.mem_image.mpr ⟨w, Finset.mem_univ _, e⟩)
theorem Bin3_of (c : Dev nD) (r : Ref sig .tc) (h : r ∉ hostOps3_W) : Bin3 m c r = Bout2 m c r :=
  StableHlo.after_of_writes_sub hostOps3 _ hostOps3_writes h

/-! ### The end -/

/-- At the end: the last host stretch applied to what region 3 left. -/
abbrev Bend : Dev nD → Valuation τ sig (Elt F) := fun c => StableHlo.after hostOps4 (Bout3 m c)
theorem Bend_of (c : Dev nD) (r : Ref sig .tc) (h : r ∉ hostOps4_W) : Bend m c r = Bout3 m c r :=
  StableHlo.after_of_writes_sub hostOps4 _ hostOps4_writes h

/-! ## The arguments are never written -/

/-- A buffer that is no array of a region and that no host stretch writes holds its launch contents wherever it is
    read: stated once for a reference `r`, used for the two arguments. -/
theorem kept_everywhere (c : Dev nD) (r : Ref sig .tc)
    (h0 : r ∉ hostOps0_W) (h1 : r ∉ hostOps1_W) (h2 : r ∉ hostOps2_W) (h3 : r ∉ hostOps3_W) (h4 : r ∉ hostOps4_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) :
    Bin0 m c r = B0 m c r ∧ Bin1 m c r = B0 m c r ∧ Bin2 m c r = B0 m c r ∧ Bin3 m c r = B0 m c r ∧ Bend m c r = B0 m c r := by
  have e0 : Bin0 m c r = B0 m c r := Bin0_of m c r h0
  have e1 : Bin1 m c r = B0 m c r := (Bin1_of m c r h1).trans ((Bout0_of_ne m c r a0).trans e0)
  have e2 : Bin2 m c r = B0 m c r := (Bin2_of m c r h2).trans ((Bout1_of_ne m c r a1).trans e1)
  have e3 : Bin3 m c r = B0 m c r := (Bin3_of m c r h3).trans ((Bout2_of_ne m c r a2).trans e2)
  exact ⟨e0, e1, e2, e3, (Bend_of m c r h4).trans ((Bout3_of_ne m c r a3).trans e3)⟩

theorem kept_arg0 (c : Dev nD) :
    Bin0 m c main_arg0 = B0 m c main_arg0 ∧ Bin1 m c main_arg0 = B0 m c main_arg0 ∧ Bin2 m c main_arg0 = B0 m c main_arg0
      ∧ Bin3 m c main_arg0 = B0 m c main_arg0 ∧ Bend m c main_arg0 = B0 m c main_arg0 :=
  kept_everywhere m c main_arg0 (by decide) (by decide) (by decide) (by decide) (by decide) (by decide) (by decide) (by decide) (by decide)

theorem kept_arg1 (c : Dev nD) :
    Bin0 m c main_arg1 = B0 m c main_arg1 ∧ Bin1 m c main_arg1 = B0 m c main_arg1 ∧ Bin2 m c main_arg1 = B0 m c main_arg1
      ∧ Bin3 m c main_arg1 = B0 m c main_arg1 ∧ Bend m c main_arg1 = B0 m c main_arg1 :=
  kept_everywhere m c main_arg1 (by decide) (by decide) (by decide) (by decide) (by decide) (by decide) (by decide) (by decide) (by decide)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Ein0 m) c
  | ⟨1, _⟩ => fun c => dat1 (Ein1 m) c
  | ⟨2, _⟩ => fun c => dat2 (Ein2 m) c
  | ⟨3, _⟩ => fun c => dat3 (Ein3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- A host stretch as an item of the run, over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Seg0.lean ====
/-
  Region 0 as an item of the run: entered from every unscoped buffer at its entry contents `Bin0`, left at its exit
  contents `Bout0`. Its arrays are split out of the unscoped buffers at entry and put back at what the pipeline leaves
  at exit; the generator register goes into the pipeline's invariant and comes back; nothing is owed; the kernel has no
  semaphore of its own.
-/
import proofs.«181552_j81286551044362_1_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ein0 m) c).loose
  hwaits := Pipeline.hwaits_of_owed_zero _ _ _ _ L lv 0 fun _ _ => rfl
  pre c := iprop(StableHlo.held (c : Thread nD τ) (Pipeline.ucRefs τ sig) (Bin0 m c) ∗ R c)
  post c := iprop(StableHlo.held (c : Thread nD τ) (Pipeline.ucRefs τ sig) (Bout0 m c) ∗ R c)
  X c := iprop(∃ r, prngReg c r)
  Y c := iprop(∃ r, prngReg c r)
  Z c := Pipeline.unscopedRest (Ix := Unit) (Name := ℕ) (U := UR sig nD τ) (Lvl := ℕ) spec0 c (Ein0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ein0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ein0 m c) (Eout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as an item of the run: entered from every unscoped buffer at its entry contents `Bin1`, left at its exit
  contents `Bout1`. Its arrays are split out of the unscoped buffers at entry and put back at what the pipeline leaves
  at exit; the generator register goes into the pipeline's invariant and comes back; nothing is owed; the kernel has no
  semaphore of its own.
-/
import proofs.«181552_j81286551044362_1_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ein1 m) c).loose
  hwaits := Pipeline.hwaits_of_owed_zero _ _ _ _ L lv 1 fun _ _ => rfl
  pre c := iprop(StableHlo.held (c : Thread nD τ) (Pipeline.ucRefs τ sig) (Bin1 m c) ∗ R c)
  post c := iprop(StableHlo.held (c : Thread nD τ) (Pipeline.ucRefs τ sig) (Bout1 m c) ∗ R c)
  X c := iprop(∃ r, prngReg c r)
  Y c := iprop(∃ r, prngReg c r)
  Z c := Pipeline.unscopedRest (Ix := Unit) (Name := ℕ) (U := UR sig nD τ) (Lvl := ℕ) spec1 c (Ein1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ein1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ein1 m c) (Eout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 as an item of the run: entered from every unscoped buffer at its entry contents `Bin2`, left at its exit
  contents `Bout2`. Its arrays are split out of the unscoped buffers at entry and put back at what the pipeline leaves
  at exit; the generator register goes into the pipeline's invariant and comes back; nothing is owed; the kernel has no
  semaphore of its own.
-/
import proofs.«181552_j81286551044362_1_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ein2 m) c).loose
  hwaits := Pipeline.hwaits_of_owed_zero _ _ _ _ L lv 2 fun _ _ => rfl
  pre c := iprop(StableHlo.held (c : Thread nD τ) (Pipeline.ucRefs τ sig) (Bin2 m c) ∗ R c)
  post c := iprop(StableHlo.held (c : Thread nD τ) (Pipeline.ucRefs τ sig) (Bout2 m c) ∗ R c)
  X c := iprop(∃ r, prngReg c r)
  Y c := iprop(∃ r, prngReg c r)
  Z c := Pipeline.unscopedRest (Ix := Unit) (Name := ℕ) (U := UR sig nD τ) (Lvl := ℕ) spec2 c (Ein2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ein2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ein2 m c) (Eout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 as an item of the run: entered from every unscoped buffer at its entry contents `Bin3`, left at its exit
  contents `Bout3`. Its arrays are split out of the unscoped buffers at entry and put back at what the pipeline leaves
  at exit; the generator register goes into the pipeline's invariant and comes back; nothing is owed; the kernel has no
  semaphore of its own.
-/
import proofs.«181552_j81286551044362_1_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ein3 m) c).loose
  hwaits := Pipeline.hwaits_of_owed_zero _ _ _ _ L lv 3 fun _ _ => rfl
  pre c := iprop(StableHlo.held (c : Thread nD τ) (Pipeline.ucRefs τ sig) (Bin3 m c) ∗ R c)
  post c := iprop(StableHlo.held (c : Thread nD τ) (Pipeline.ucRefs τ sig) (Bout3 m c) ∗ R c)
  X c := iprop(∃ r, prngReg c r)
  Y c := iprop(∃ r, prngReg c r)
  Z c := Pipeline.unscopedRest (Ix := Unit) (Name := ℕ) (U := UR sig nD τ) (Lvl := ℕ) spec3 c (Ein3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Ein3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Ein3 m c) (Eout3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Launch.lean ====
/-
  The run of the whole program, for any float instance: @main is its nine items in order (five host stretches, four
  kernel regions), each entered from what the one before left, so every weakly fair execution from any memory with zero
  counters terminates, nothing faulting, and at the end every unscoped buffer of core `c` holds `Bend m c`: the fold
  of the host stretches and the regions' write-backs from the launch memory. The frame claim follows: both arguments
  are read back as launched.
-/
import proofs.«181552_j81286551044362_1_alg».proof.Proof.KI.Seg0
import proofs.«181552_j81286551044362_1_alg».proof.Proof.KI.Seg1
import proofs.«181552_j81286551044362_1_alg».proof.Proof.KI.Seg2
import proofs.«181552_j81286551044362_1_alg».proof.Proof.KI.Seg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's nine items in order: a host item per stretch from its boundary's contents, a region per pallas_call. -/
abbrev items : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (Bout0 m)),
    .region (reg1 m),
    .host (hseg hostOps2 hostOps2_sub hostOps2_fresh (Bout1 m)),
    .region (reg2 m),
    .host (hseg hostOps3 hostOps3_sub hostOps3_fresh (Bout2 m)),
    .region (reg3 m),
    .host (hseg hostOps4 hostOps4_sub hostOps4_fresh (Bout3 m)) ]

/-- @main IS the run of the items. -/
theorem main_run (c : Dev nD) : main (F := F) c = Pipeline.Seg.run (items m) :=
  main_segs adm (pdats m) () 𝒱₀ L lv _ _ _ _ _ (reg0 m) (reg1 m) (reg2 m) (reg3 m) rfl rfl rfl rfl rfl c

-- the launch theorem's implicit arguments are found by unifying its conclusion with this one, which takes unfolding
-- plain definitions in a metavariable's type
set_option backward.isDefEq.respectTransparency.types false in
/-- THE RUN: every weakly fair execution terminates, and every final memory holds every unscoped buffer at `Bend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bend m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => StableHlo.held (c : Thread nD τ) (Pipeline.ucRefs τ sig) (Bend m c))
    (hch := ⟨fun _ => .rfl, fun _ => .rfl, fun _ => .rfl, fun _ => .rfl, fun _ => .rfl, fun _ => .rfl, fun _ => .rfl,
      fun _ => .rfl, fun _ => .rfl, fun c => by
        show (iprop(StableHlo.held (c : Thread nD τ) (Pipeline.ucRefs τ sig) (Bend m c) ∗ R c) : sProp 𝕄) ⊢ _
        iintro ⟨Hh, -, HO⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bend m c b)
    (hfin := fun c s' => by
      iintro ⟨Hh, HSI⟩
      unfold StableHlo.held
      imodintro
      iapply (pointsTo_read_all (Pipeline.ucRefs τ sig) (fun b => (((c : Thread nD τ)).1, b)) (Bend m c) s')
      isplitl [Hh] <;> iassumption)
    (hQ := fun s h c => h c)

/-- THE FRAME: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (kept_arg0 m c).2.2.2.2,
     (h c _ (mem_uc main_arg1 (by decide))).trans (kept_arg1 m c).2.2.2.2⟩) (run_all m ρ)

end Cert.KernelIdeal.Hand

end
-- ==== Proof.PathSpec.lean ====
/-
  What one path of the layer computes, over the extended reals. A path takes a block `x : [d, 4096]` (row `i` holds
  component `i` of the 4096 input channels) and a weight matrix `w : [4096, 4096]` (input channel `u`, output
  channel `v`) and returns `out[i, v] = (∑ u, x[i, u] · w[u, v]) · scale`, with `scale` the binary word of 1/64 =
  sqrt(1/4096) read as a real. The kernel computes it tile by tile on the matrix unit; the reference computes the same
  sum with the two factors in the other order and the result laid out `[v, i]`.
-/
import Idealize.ShloMosaic.PureOps.Ideal
import Idealize.ShloMosaic.Lib.ValueIdx

noncomputable section

namespace Cert.Path

open Idealize.ShloMosaic Idealize.ShloMosaic.ValueIdx
open scoped BigOperators

/-- The scale every path multiplies its sums by: the f32 word of 1/64, as the real it denotes. -/
abbrev scale : EReal := Ideal.ofBits .f32 0x3C800000#32

/-- A path's result as ONE function of its two arrays, index by index. -/
def pathOut (d : Nat) (x : FVec Ideal ⟨2, ![d, 4096]⟩ .f32) (w : FVec Ideal ⟨2, ![4096, 4096]⟩ .f32) :
    FVec Ideal ⟨2, ![d, 4096]⟩ .f32 :=
  fun y => (∑ u : Fin 4096, x (ix2 (y 0) u) * w (ix2 u (y 1))) * scale

theorem pathOut_apply (d : Nat) (x : FVec Ideal ⟨2, ![d, 4096]⟩ .f32) (w : FVec Ideal ⟨2, ![4096, 4096]⟩ .f32)
    (i : Fin d) (v : Fin 4096) :
    pathOut d x w (ix2 i v) = (∑ u : Fin 4096, x (ix2 i u) * w (ix2 u v)) * scale := rfl

end Cert.Path

end
-- ==== Proof.KI.Value0.lean ====
/-
  The value region 0 leaves, at the ideal instance: the result array `[1, 4096]` after the region is `pathOut 1` of the
  region's two input arrays as it finds them. Tile `n` of the result is written at grid point `n` and is, index by
  index, the matrix unit's product of the resident block `x` with column tile `n` of `w`, a plain sum over the 4096
  contracted channels at the ideal values, times the scale; the eight tiles cover the array.
-/
import proofs.«181552_j81286551044362_1_alg».proof.Proof.KI.Region0
import proofs.«181552_j81286551044362_1_alg».proof.Proof.PathSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Path
open Idealize.ShloMosaic Idealize.ShloMosaic.TcCoe Idealize.ShloMosaic.ValueIdx Idealize.SL.Sem
open Idealize.ShloMosaic.Pipeline (Dat)
open scoped BigOperators

theorem hz0 : (![0, 0] : Fin 2 → Nat) = fun _ => 0 := funext fun a => by fin_cases a <;> rfl

/-! ## The matrix unit's product at an index -/

theorem dlhs0_0 (i : S1x512.Idx) (q : dot_S1x4096_S4096x512_S1x512_1_0_0_1_n_n.contr.Idx) :
    (dot_S1x4096_S4096x512_S1x512_1_0_0_1_n_n.lhsIdx i q 0).val = (i 0).val := by
  unfold DotDims.lhsIdx
  rw [dif_neg (show ¬(0 : Fin S1x4096.rank) ∈ dot_S1x4096_S4096x512_S1x512_1_0_0_1_n_n.lhsBatch by decide), dif_pos (show (0 : Fin S1x4096.rank) ∈ dot_S1x4096_S4096x512_S1x512_1_0_0_1_n_n.lhsNonContracting by decide)]
  rfl
theorem dlhs0_1 (i : S1x512.Idx) (q : dot_S1x4096_S4096x512_S1x512_1_0_0_1_n_n.contr.Idx) :
    (dot_S1x4096_S4096x512_S1x512_1_0_0_1_n_n.lhsIdx i q 1).val = (q ⟨0, by decide⟩).val :=
  dot_S1x4096_S4096x512_S1x512_1_0_0_1_n_n.lhsIdx_val_of_single rfl i q
theorem drhs0_0 (i : S1x512.Idx) (q : dot_S1x4096_S4096x512_S1x512_1_0_0_1_n_n.contr.Idx) :
    (dot_S1x4096_S4096x512_S1x512_1_0_0_1_n_n.rhsIdx i q 0).val = (q ⟨0, by decide⟩).val :=
  dot_S1x4096_S4096x512_S1x512_1_0_0_1_n_n.rhsIdx_val_of_single rfl i q
theorem drhs0_1 (i : S1x512.Idx) (q : dot_S1x4096_S4096x512_S1x512_1_0_0_1_n_n.contr.Idx) :
    (dot_S1x4096_S4096x512_S1x512_1_0_0_1_n_n.rhsIdx i q 1).val = (i 1).val := by
  unfold DotDims.rhsIdx
  rw [dif_neg (show ¬(1 : Fin S4096x512.rank) ∈ dot_S1x4096_S4096x512_S1x512_1_0_0_1_n_n.rhsBatch by decide), dif_pos (show (1 : Fin S4096x512.rank) ∈ dot_S1x4096_S4096x512_S1x512_1_0_0_1_n_n.rhsNonContracting by decide)]
  rfl

/-- Into a zero accumulator the product at `(p, q)` is the sum over the contracted channel `u` of `a[p, u] · b[u, q]`. -/
theorem mm0_apply (a : FVec Ideal S1x4096 .bf16) (b : FVec Ideal S4096x512 .bf16) (p : Fin 1) (q : Fin 512) :
    matmul dot_S1x4096_S4096x512_S1x512_1_0_0_1_n_n none a b (constant S1x512 .f32 0x00000000#32) (ix2 p q) = ∑ u : Fin 4096, a (ix2 p u) * b (ix2 u q) := by
  simp only [matmul]
  rw [Ideal.matmul_constant_zero_apply, ← Equiv.sum_comp (contrEquiv1 dot_S1x4096_S4096x512_S1x512_1_0_0_1_n_n 4096 rfl rfl).symm]
  refine Finset.sum_congr rfl fun k _ => ?_
  have hk := contrEquiv1_symm_val dot_S1x4096_S4096x512_S1x512_1_0_0_1_n_n 4096 rfl rfl k
  have el : dot_S1x4096_S4096x512_S1x512_1_0_0_1_n_n.lhsIdx (ix2 p q) ((contrEquiv1 dot_S1x4096_S4096x512_S1x512_1_0_0_1_n_n 4096 rfl rfl).symm k) = ix2 p k := funext fun a => Fin.ext (by
    match a with
    | ⟨0, _⟩ => exact dlhs0_0 _ _
    | ⟨1, _⟩ => exact (dlhs0_1 _ _).trans hk)
  have er : dot_S1x4096_S4096x512_S1x512_1_0_0_1_n_n.rhsIdx (ix2 p q) ((contrEquiv1 dot_S1x4096_S4096x512_S1x512_1_0_0_1_n_n 4096 rfl rfl).symm k) = ix2 k q := funext fun a => Fin.ext (by
    match a with
    | ⟨0, _⟩ => exact (drhs0_0 _ _).trans hk
    | ⟨1, _⟩ => exact drhs0_1 _ _)
  rw [el, er]

/-- The body's payload at `(p, q)`: the casts are the identity at the ideal values, so it is that sum times the scale. -/
theorem pay0_apply (x0 : Vec Ideal S1x4096 .f32) (x1 : Vec Ideal S4096x512 .f32) (p : Fin 1) (q : Fin 512) :
    k0_pay1 (F := Ideal) x0 x1 (ix2 p q) = (∑ u : Fin 4096, x0 (ix2 p u) * x1 (ix2 u q)) * scale := by
  unfold k0_pay1
  rw [shapeCast_self, shapeCast_self]
  exact congrArg (· * scale) (mm0_apply _ _ p q)

/-! ## Tile by tile -/

variable (V : (c : Dev nD) → (b : Ref sig .tc) → Buf (Elt Ideal) ((c : Thread nD τ).loc b))

/-- The printed index maps over the grid: the resident block never moves; the matrix tile and the result tile are at
    column block `t`. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- WHAT POINT `t` WRITES BACK is tile `t` of `pathOut 1` of the two input arrays as the region finds them. -/
theorem flushed0_eq (c : Dev nD) (t : Fin cfg0.N) :
    (dat0 V c).flushed 2 t = ((cfg0.win 2).blk t).view.read (Elt Ideal) (pathOut 1 (V c main_v2) (V c main_v4)) := by
  show (cfg0.win 2).cut (grid0.coords t) ((dat0 V c).after 2 t) = _
  rw [after0_2]
  unfold out0_2
  rw [View.canon_unit_zero hz0]
  simp only [View.ld_unit_zero (S := S1x4096) hz0, View.ld_unit_zero (S := S4096x512) hz0]
  obtain ⟨e00, e01, e10, e11, e20, e21⟩ := idx_facts0 t
  have ht : t.val < 8 := by have h := t.isLt; have hN : cfg0.N = 8 := N_0; omega
  funext j
  obtain ⟨p, q, rfl⟩ : ∃ (p : Fin 1) (q : Fin 512), j = ix2 p q := ⟨j 0, j 1, eq_ix2 j⟩
  have hq : q.val < 512 := q.isLt
  have hp : p.val < 1 := p.isLt
  show k0_pay1 (F := Ideal) (iblk0 V c 0 t) (iblk0 V c 1 t) (ix2 p q) = pathOut 1 (V c main_v2) (V c main_v4) (((cfg0.win 2).blk t).view.emb (ix2 p q))
  refine (pay0_apply _ _ p q).trans ?_
  have hemb : ((cfg0.win 2).blk t).view.emb (ix2 p q) = ix2 p (⟨t.val * 512 + q.val, by omega⟩ : Fin 4096) := by
    funext a; apply Fin.ext
    match a with
    | ⟨0, _⟩ => show win0_2.index t (0 : Fin 2) * 1 + 1 * p.val = p.val; omega
    | ⟨1, _⟩ => show win0_2.index t (1 : Fin 2) * 512 + 1 * q.val = t.val * 512 + q.val; omega
  rw [hemb, pathOut_apply]
  refine congrArg (· * scale) (Finset.sum_congr rfl fun u _ => ?_)
  have hu : u.val < 4096 := u.isLt
  have h0 : iblk0 V c 0 t (ix2 p u) = V c main_v2 (ix2 p u) := by
    show V c main_v2 (((cfg0.win 0).blk t).view.emb (ix2 p u)) = V c main_v2 (ix2 p u)
    refine congrArg _ (funext fun a => Fin.ext ?_)
    match a with
    | ⟨0, _⟩ => show win0_0.index t (0 : Fin 2) * 1 + 1 * p.val = p.val; omega
    | ⟨1, _⟩ => show win0_0.index t (1 : Fin 2) * 4096 + 1 * u.val = u.val; omega
  have h1 : iblk0 V c 1 t (ix2 u q) = V c main_v4 (ix2 u (⟨t.val * 512 + q.val, by omega⟩ : Fin 4096)) := by
    show V c main_v4 (((cfg0.win 1).blk t).view.emb (ix2 u q)) = V c main_v4 (ix2 u (⟨t.val * 512 + q.val, by omega⟩ : Fin 4096))
    refine congrArg _ (funext fun a => Fin.ext ?_)
    match a with
    | ⟨0, _⟩ => show win0_1.index t (0 : Fin 2) * 4096 + 1 * u.val = u.val; omega
    | ⟨1, _⟩ => show win0_1.index t (1 : Fin 2) * 512 + 1 * q.val = t.val * 512 + q.val; omega
  rw [h0, h1]

/-- An index of the result array is in point `t`'s tile iff each coordinate is in the tile's range on its axis. -/
theorem mem_blk0 (t : Fin cfg0.N) (i : S1x4096.Idx) :
    i ∈ ((cfg0.win 2).blk t).view.set ↔ ∀ a : Fin 2, win0_2.index t a * S1x512.size a ≤ (i a).val ∧ (i a).val < win0_2.index t a * S1x512.size a + S1x512.size a := by
  show i ∈ ((View.whole main_v5).slice (win0_2.rect t)).set ↔ _
  rw [View.set_slice_whole, Rect.mem_set_unit]
  exact Iff.rfl

/-- THE ARRAY after the region: `pathOut 1` of the two input arrays as the region finds them. -/
theorem final0 (c : Dev nD) : (dat0 V c).arrAt 2 cfg0.N = pathOut 1 (V c main_v2) (V c main_v4) :=
  (dat0 V c).arrAt_eq_of_cover 2 (pathOut 1 (V c main_v2) (V c main_v4)) (fun t _ => flushed0_eq V c t) fun i => by
    have hi0 : (i 0).val < 1 := (i 0).isLt
    have hi1 : (i 1).val < 4096 := (i 1).isLt
    refine ⟨⟨(i 1).val / 512, by rw [show cfg0.N = 8 from N_0]; omega⟩, flush0_2 _, ?_⟩
    obtain ⟨e00, e01, e10, e11, e20, e21⟩ := idx_facts0 ⟨(i 1).val / 512, by rw [show cfg0.N = 8 from N_0]; omega⟩
    rw [mem_blk0]
    intro a
    match a with
    | ⟨0, _⟩ => show win0_2.index _ (0 : Fin 2) * 1 ≤ (i 0).val ∧ (i 0).val < win0_2.index _ (0 : Fin 2) * 1 + 1; rw [e20]; omega
    | ⟨1, _⟩ => show win0_2.index _ (1 : Fin 2) * 512 ≤ (i 1).val ∧ (i 1).val < win0_2.index _ (1 : Fin 2) * 512 + 512; rw [e21]; show (i 1).val / 512 * 512 ≤ (i 1).val ∧ (i 1).val < (i 1).val / 512 * 512 + 512; omega

end Cert.KernelIdeal.Hand

end
-- ==== Proof.KI.Value1.lean ====
/-
  The value region 1 leaves, at the ideal instance: the result array `[3, 4096]` after the region is `pathOut 3` of the
  region's two input arrays as it finds them. Tile `n` of the result is written at grid point `n` and is, index by
  index, the matrix unit's product of the resident block `x` with column tile `n` of `w`, a plain sum over the 4096
  contracted channels at the ideal values, times the scale; the eight tiles cover the array.
-/
import proofs.«181552_j81286551044362_1_alg».proof.Proof.KI.Region1
import proofs.«181552_j81286551044362_1_alg».proof.Proof.PathSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Path
open Idealize.ShloMosaic Idealize.ShloMosaic.TcCoe Idealize.ShloMosaic.ValueIdx Idealize.SL.Sem
open Idealize.ShloMosaic.Pipeline (Dat)
open scoped BigOperators

theorem hz1 : (![0, 0] : Fin 2 → Nat) = fun _ => 0 := funext fun a => by fin_cases a <;> rfl

/-! ## The matrix unit's product at an index -/

theorem dlhs1_0 (i : S3x512.Idx) (q : dot_S3x4096_S4096x512_S3x512_1_0_0_1_n_n.contr.Idx) :
    (dot_S3x4096_S4096x512_S3x512_1_0_0_1_n_n.lhsIdx i q 0).val = (i 0).val := by
  unfold DotDims.lhsIdx
  rw [dif_neg (show ¬(0 : Fin S3x4096.rank) ∈ dot_S3x4096_S4096x512_S3x512_1_0_0_1_n_n.lhsBatch by decide), dif_pos (show (0 : Fin S3x4096.rank) ∈ dot_S3x4096_S4096x512_S3x512_1_0_0_1_n_n.lhsNonContracting by decide)]
  rfl
theorem dlhs1_1 (i : S3x512.Idx) (q : dot_S3x4096_S4096x512_S3x512_1_0_0_1_n_n.contr.Idx) :
    (dot_S3x4096_S4096x512_S3x512_1_0_0_1_n_n.lhsIdx i q 1).val = (q ⟨0, by decide⟩).val :=
  dot_S3x4096_S4096x512_S3x512_1_0_0_1_n_n.lhsIdx_val_of_single rfl i q
theorem drhs1_0 (i : S3x512.Idx) (q : dot_S3x4096_S4096x512_S3x512_1_0_0_1_n_n.contr.Idx) :
    (dot_S3x4096_S4096x512_S3x512_1_0_0_1_n_n.rhsIdx i q 0).val = (q ⟨0, by decide⟩).val :=
  dot_S3x4096_S4096x512_S3x512_1_0_0_1_n_n.rhsIdx_val_of_single rfl i q
theorem drhs1_1 (i : S3x512.Idx) (q : dot_S3x4096_S4096x512_S3x512_1_0_0_1_n_n.contr.Idx) :
    (dot_S3x4096_S4096x512_S3x512_1_0_0_1_n_n.rhsIdx i q 1).val = (i 1).val := by
  unfold DotDims.rhsIdx
  rw [dif_neg (show ¬(1 : Fin S4096x512.rank) ∈ dot_S3x4096_S4096x512_S3x512_1_0_0_1_n_n.rhsBatch by decide), dif_pos (show (1 : Fin S4096x512.rank) ∈ dot_S3x4096_S4096x512_S3x512_1_0_0_1_n_n.rhsNonContracting by decide)]
  rfl

/-- Into a zero accumulator the product at `(p, q)` is the sum over the contracted channel `u` of `a[p, u] · b[u, q]`. -/
theorem mm1_apply (a : FVec Ideal S3x4096 .bf16) (b : FVec Ideal S4096x512 .bf16) (p : Fin 3) (q : Fin 512) :
    matmul dot_S3x4096_S4096x512_S3x512_1_0_0_1_n_n none a b (constant S3x512 .f32 0x00000000#32) (ix2 p q) = ∑ u : Fin 4096, a (ix2 p u) * b (ix2 u q) := by
  simp only [matmul]
  rw [Ideal.matmul_constant_zero_apply, ← Equiv.sum_comp (contrEquiv1 dot_S3x4096_S4096x512_S3x512_1_0_0_1_n_n 4096 rfl rfl).symm]
  refine Finset.sum_congr rfl fun k _ => ?_
  have hk := contrEquiv1_symm_val dot_S3x4096_S4096x512_S3x512_1_0_0_1_n_n 4096 rfl rfl k
  have el : dot_S3x4096_S4096x512_S3x512_1_0_0_1_n_n.lhsIdx (ix2 p q) ((contrEquiv1 dot_S3x4096_S4096x512_S3x512_1_0_0_1_n_n 4096 rfl rfl).symm k) = ix2 p k := funext fun a => Fin.ext (by
    match a with
    | ⟨0, _⟩ => exact dlhs1_0 _ _
    | ⟨1, _⟩ => exact (dlhs1_1 _ _).trans hk)
  have er : dot_S3x4096_S4096x512_S3x512_1_0_0_1_n_n.rhsIdx (ix2 p q) ((contrEquiv1 dot_S3x4096_S4096x512_S3x512_1_0_0_1_n_n 4096 rfl rfl).symm k) = ix2 k q := funext fun a => Fin.ext (by
    match a with
    | ⟨0, _⟩ => exact (drhs1_0 _ _).trans hk
    | ⟨1, _⟩ => exact drhs1_1 _ _)
  rw [el, er]

/-- The body's payload at `(p, q)`: the casts are the identity at the ideal values, so it is that sum times the scale. -/
theorem pay1_apply (x0 : Vec Ideal S3x4096 .f32) (x1 : Vec Ideal S4096x512 .f32) (p : Fin 3) (q : Fin 512) :
    k1_pay1 (F := Ideal) x0 x1 (ix2 p q) = (∑ u : Fin 4096, x0 (ix2 p u) * x1 (ix2 u q)) * scale := by
  unfold k1_pay1
  rw [shapeCast_self, shapeCast_self]
  exact congrArg (· * scale) (mm1_apply _ _ p q)

/-! ## Tile by tile -/

variable (V : (c : Dev nD) → (b : Ref sig .tc) → Buf (Elt Ideal) ((c : Thread nD τ).loc b))

/-- The printed index maps over the grid: the resident block never moves; the matrix tile and the result tile are at
    column block `t`. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- WHAT POINT `t` WRITES BACK is tile `t` of `pathOut 3` of the two input arrays as the region finds them. -/
theorem flushed1_eq (c : Dev nD) (t : Fin cfg1.N) :
    (dat1 V c).flushed 2 t = ((cfg1.win 2).blk t).view.read (Elt Ideal) (pathOut 3 (V c main_v10) (V c main_v12)) := by
  show (cfg1.win 2).cut (grid1.coords t) ((dat1 V c).after 2 t) = _
  rw [after1_2]
  unfold out1_2
  rw [View.canon_unit_zero hz1]
  simp only [View.ld_unit_zero (S := S3x4096) hz1, View.ld_unit_zero (S := S4096x512) hz1]
  obtain ⟨e00, e01, e10, e11, e20, e21⟩ := idx_facts1 t
  have ht : t.val < 8 := by have h := t.isLt; have hN : cfg1.N = 8 := N_1; omega
  funext j
  obtain ⟨p, q, rfl⟩ : ∃ (p : Fin 3) (q : Fin 512), j = ix2 p q := ⟨j 0, j 1, eq_ix2 j⟩
  have hq : q.val < 512 := q.isLt
  have hp : p.val < 3 := p.isLt
  show k1_pay1 (F := Ideal) (iblk1 V c 0 t) (iblk1 V c 1 t) (ix2 p q) = pathOut 3 (V c main_v10) (V c main_v12) (((cfg1.win 2).blk t).view.emb (ix2 p q))
  refine (pay1_apply _ _ p q).trans ?_
  have hemb : ((cfg1.win 2).blk t).view.emb (ix2 p q) = ix2 p (⟨t.val * 512 + q.val, by omega⟩ : Fin 4096) := by
    funext a; apply Fin.ext
    match a with
    | ⟨0, _⟩ => show win1_2.index t (0 : Fin 2) * 3 + 1 * p.val = p.val; omega
    | ⟨1, _⟩ => show win1_2.index t (1 : Fin 2) * 512 + 1 * q.val = t.val * 512 + q.val; omega
  rw [hemb, pathOut_apply]
  refine congrArg (· * scale) (Finset.sum_congr rfl fun u _ => ?_)
  have hu : u.val < 4096 := u.isLt
  have h0 : iblk1 V c 0 t (ix2 p u) = V c main_v10 (ix2 p u) := by
    show V c main_v10 (((cfg1.win 0).blk t).view.emb (ix2 p u)) = V c main_v10 (ix2 p u)
    refine congrArg _ (funext fun a => Fin.ext ?_)
    match a with
    | ⟨0, _⟩ => show win1_0.index t (0 : Fin 2) * 3 + 1 * p.val = p.val; omega
    | ⟨1, _⟩ => show win1_0.index t (1 : Fin 2) * 4096 + 1 * u.val = u.val; omega
  have h1 : iblk1 V c 1 t (ix2 u q) = V c main_v12 (ix2 u (⟨t.val * 512 + q.val, by omega⟩ : Fin 4096)) := by
    show V c main_v12 (((cfg1.win 1).blk t).view.emb (ix2 u q)) = V c main_v12 (ix2 u (⟨t.val * 512 + q.val, by omega⟩ : Fin 4096))
    refine congrArg _ (funext fun a => Fin.ext ?_)
    match a with
    | ⟨0, _⟩ => show win1_1.index t (0 : Fin 2) * 4096 + 1 * u.val = u.val; omega
    | ⟨1, _⟩ => show win1_1.index t (1 : Fin 2) * 512 + 1 * q.val = t.val * 512 + q.val; omega
  rw [h0, h1]

/-- An index of the result array is in point `t`'s tile iff each coordinate is in the tile's range on its axis. -/
theorem mem_blk1 (t : Fin cfg1.N) (i : S3x4096.Idx) :
    i ∈ ((cfg1.win 2).blk t).view.set ↔ ∀ a : Fin 2, win1_2.index t a * S3x512.size a ≤ (i a).val ∧ (i a).val < win1_2.index t a * S3x512.size a + S3x512.size a := by
  show i ∈ ((View.whole main_v13).slice (win1_2.rect t)).set ↔ _
  rw [View.set_slice_whole, Rect.mem_set_unit]
  exact Iff.rfl

/-- THE ARRAY after the region: `pathOut 3` of the two input arrays as the region finds them. -/
theorem final1 (c : Dev nD) : (dat1 V c).arrAt 2 cfg1.N = pathOut 3 (V c main_v10) (V c main_v12) :=
  (dat1 V c).arrAt_eq_of_cover 2 (pathOut 3 (V c main_v10) (V c main_v12)) (fun t _ => flushed1_eq V c t) fun i => by
    have hi0 : (i 0).val < 3 := (i 0).isLt
    have hi1 : (i 1).val < 4096 := (i 1).isLt
    refine ⟨⟨(i 1).val / 512, by rw [show cfg1.N = 8 from N_1]; omega⟩, flush1_2 _, ?_⟩
    obtain ⟨e00, e01, e10, e11, e20, e21⟩ := idx_facts1 ⟨(i 1).val / 512, by rw [show cfg1.N = 8 from N_1]; omega⟩
    rw [mem_blk1]
    intro a
    match a with
    | ⟨0, _⟩ => show win1_2.index _ (0 : Fin 2) * 3 ≤ (i 0).val ∧ (i 0).val < win1_2.index _ (0 : Fin 2) * 3 + 3; rw [e20]; omega
    | ⟨1, _⟩ => show win1_2.index _ (1 : Fin 2) * 512 ≤ (i 1).val ∧ (i 1).val < win1_2.index _ (1 : Fin 2) * 512 + 512; rw [e21]; show (i 1).val / 512 * 512 ≤ (i 1).val ∧ (i 1).val < (i 1).val / 512 * 512 + 512; omega

end Cert.KernelIdeal.Hand

end
-- ==== Proof.KI.Value2.lean ====
/-
  The value region 2 leaves, at the ideal instance: the result array `[5, 4096]` after the region is `pathOut 5` of the
  region's two input arrays as it finds them. Tile `n` of the result is written at grid point `n` and is, index by
  index, the matrix unit's product of the resident block `x` with column tile `n` of `w`, a plain sum over the 4096
  contracted channels at the ideal values, times the scale; the eight tiles cover the array.
-/
import proofs.«181552_j81286551044362_1_alg».proof.Proof.KI.Region2
import proofs.«181552_j81286551044362_1_alg».proof.Proof.PathSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Path
open Idealize.ShloMosaic Idealize.ShloMosaic.TcCoe Idealize.ShloMosaic.ValueIdx Idealize.SL.Sem
open Idealize.ShloMosaic.Pipeline (Dat)
open scoped BigOperators

theorem hz2 : (![0, 0] : Fin 2 → Nat) = fun _ => 0 := funext fun a => by fin_cases a <;> rfl

/-! ## The matrix unit's product at an index -/

theorem dlhs2_0 (i : S5x512.Idx) (q : dot_S5x4096_S4096x512_S5x512_1_0_0_1_n_n.contr.Idx) :
    (dot_S5x4096_S4096x512_S5x512_1_0_0_1_n_n.lhsIdx i q 0).val = (i 0).val := by
  unfold DotDims.lhsIdx
  rw [dif_neg (show ¬(0 : Fin S5x4096.rank) ∈ dot_S5x4096_S4096x512_S5x512_1_0_0_1_n_n.lhsBatch by decide), dif_pos (show (0 : Fin S5x4096.rank) ∈ dot_S5x4096_S4096x512_S5x512_1_0_0_1_n_n.lhsNonContracting by decide)]
  rfl
theorem dlhs2_1 (i : S5x512.Idx) (q : dot_S5x4096_S4096x512_S5x512_1_0_0_1_n_n.contr.Idx) :
    (dot_S5x4096_S4096x512_S5x512_1_0_0_1_n_n.lhsIdx i q 1).val = (q ⟨0, by decide⟩).val :=
  dot_S5x4096_S4096x512_S5x512_1_0_0_1_n_n.lhsIdx_val_of_single rfl i q
theorem drhs2_0 (i : S5x512.Idx) (q : dot_S5x4096_S4096x512_S5x512_1_0_0_1_n_n.contr.Idx) :
    (dot_S5x4096_S4096x512_S5x512_1_0_0_1_n_n.rhsIdx i q 0).val = (q ⟨0, by decide⟩).val :=
  dot_S5x4096_S4096x512_S5x512_1_0_0_1_n_n.rhsIdx_val_of_single rfl i q
theorem drhs2_1 (i : S5x512.Idx) (q : dot_S5x4096_S4096x512_S5x512_1_0_0_1_n_n.contr.Idx) :
    (dot_S5x4096_S4096x512_S5x512_1_0_0_1_n_n.rhsIdx i q 1).val = (i 1).val := by
  unfold DotDims.rhsIdx
  rw [dif_neg (show ¬(1 : Fin S4096x512.rank) ∈ dot_S5x4096_S4096x512_S5x512_1_0_0_1_n_n.rhsBatch by decide), dif_pos (show (1 : Fin S4096x512.rank) ∈ dot_S5x4096_S4096x512_S5x512_1_0_0_1_n_n.rhsNonContracting by decide)]
  rfl

/-- Into a zero accumulator the product at `(p, q)` is the sum over the contracted channel `u` of `a[p, u] · b[u, q]`. -/
theorem mm2_apply (a : FVec Ideal S5x4096 .bf16) (b : FVec Ideal S4096x512 .bf16) (p : Fin 5) (q : Fin 512) :
    matmul dot_S5x4096_S4096x512_S5x512_1_0_0_1_n_n none a b (constant S5x512 .f32 0x00000000#32) (ix2 p q) = ∑ u : Fin 4096, a (ix2 p u) * b (ix2 u q) := by
  simp only [matmul]
  rw [Ideal.matmul_constant_zero_apply, ← Equiv.sum_comp (contrEquiv1 dot_S5x4096_S4096x512_S5x512_1_0_0_1_n_n 4096 rfl rfl).symm]
  refine Finset.sum_congr rfl fun k _ => ?_
  have hk := contrEquiv1_symm_val dot_S5x4096_S4096x512_S5x512_1_0_0_1_n_n 4096 rfl rfl k
  have el : dot_S5x4096_S4096x512_S5x512_1_0_0_1_n_n.lhsIdx (ix2 p q) ((contrEquiv1 dot_S5x4096_S4096x512_S5x512_1_0_0_1_n_n 4096 rfl rfl).symm k) = ix2 p k := funext fun a => Fin.ext (by
    match a with
    | ⟨0, _⟩ => exact dlhs2_0 _ _
    | ⟨1, _⟩ => exact (dlhs2_1 _ _).trans hk)
  have er : dot_S5x4096_S4096x512_S5x512_1_0_0_1_n_n.rhsIdx (ix2 p q) ((contrEquiv1 dot_S5x4096_S4096x512_S5x512_1_0_0_1_n_n 4096 rfl rfl).symm k) = ix2 k q := funext fun a => Fin.ext (by
    match a with
    | ⟨0, _⟩ => exact (drhs2_0 _ _).trans hk
    | ⟨1, _⟩ => exact drhs2_1 _ _)
  rw [el, er]

/-- The body's payload at `(p, q)`: the casts are the identity at the ideal values, so it is that sum times the scale. -/
theorem pay2_apply (x0 : Vec Ideal S5x4096 .f32) (x1 : Vec Ideal S4096x512 .f32) (p : Fin 5) (q : Fin 512) :
    k2_pay1 (F := Ideal) x0 x1 (ix2 p q) = (∑ u : Fin 4096, x0 (ix2 p u) * x1 (ix2 u q)) * scale := by
  unfold k2_pay1
  rw [shapeCast_self, shapeCast_self]
  exact congrArg (· * scale) (mm2_apply _ _ p q)

/-! ## Tile by tile -/

variable (V : (c : Dev nD) → (b : Ref sig .tc) → Buf (Elt Ideal) ((c : Thread nD τ).loc b))

/-- The printed index maps over the grid: the resident block never moves; the matrix tile and the result tile are at
    column block `t`. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- WHAT POINT `t` WRITES BACK is tile `t` of `pathOut 5` of the two input arrays as the region finds them. -/
theorem flushed2_eq (c : Dev nD) (t : Fin cfg2.N) :
    (dat2 V c).flushed 2 t = ((cfg2.win 2).blk t).view.read (Elt Ideal) (pathOut 5 (V c main_v18) (V c main_v20)) := by
  show (cfg2.win 2).cut (grid2.coords t) ((dat2 V c).after 2 t) = _
  rw [after2_2]
  unfold out2_2
  rw [View.canon_unit_zero hz2]
  simp only [View.ld_unit_zero (S := S5x4096) hz2, View.ld_unit_zero (S := S4096x512) hz2]
  obtain ⟨e00, e01, e10, e11, e20, e21⟩ := idx_facts2 t
  have ht : t.val < 8 := by have h := t.isLt; have hN : cfg2.N = 8 := N_2; omega
  funext j
  obtain ⟨p, q, rfl⟩ : ∃ (p : Fin 5) (q : Fin 512), j = ix2 p q := ⟨j 0, j 1, eq_ix2 j⟩
  have hq : q.val < 512 := q.isLt
  have hp : p.val < 5 := p.isLt
  show k2_pay1 (F := Ideal) (iblk2 V c 0 t) (iblk2 V c 1 t) (ix2 p q) = pathOut 5 (V c main_v18) (V c main_v20) (((cfg2.win 2).blk t).view.emb (ix2 p q))
  refine (pay2_apply _ _ p q).trans ?_
  have hemb : ((cfg2.win 2).blk t).view.emb (ix2 p q) = ix2 p (⟨t.val * 512 + q.val, by omega⟩ : Fin 4096) := by
    funext a; apply Fin.ext
    match a with
    | ⟨0, _⟩ => show win2_2.index t (0 : Fin 2) * 5 + 1 * p.val = p.val; omega
    | ⟨1, _⟩ => show win2_2.index t (1 : Fin 2) * 512 + 1 * q.val = t.val * 512 + q.val; omega
  rw [hemb, pathOut_apply]
  refine congrArg (· * scale) (Finset.sum_congr rfl fun u _ => ?_)
  have hu : u.val < 4096 := u.isLt
  have h0 : iblk2 V c 0 t (ix2 p u) = V c main_v18 (ix2 p u) := by
    show V c main_v18 (((cfg2.win 0).blk t).view.emb (ix2 p u)) = V c main_v18 (ix2 p u)
    refine congrArg _ (funext fun a => Fin.ext ?_)
    match a with
    | ⟨0, _⟩ => show win2_0.index t (0 : Fin 2) * 5 + 1 * p.val = p.val; omega
    | ⟨1, _⟩ => show win2_0.index t (1 : Fin 2) * 4096 + 1 * u.val = u.val; omega
  have h1 : iblk2 V c 1 t (ix2 u q) = V c main_v20 (ix2 u (⟨t.val * 512 + q.val, by omega⟩ : Fin 4096)) := by
    show V c main_v20 (((cfg2.win 1).blk t).view.emb (ix2 u q)) = V c main_v20 (ix2 u (⟨t.val * 512 + q.val, by omega⟩ : Fin 4096))
    refine congrArg _ (funext fun a => Fin.ext ?_)
    match a with
    | ⟨0, _⟩ => show win2_1.index t (0 : Fin 2) * 4096 + 1 * u.val = u.val; omega
    | ⟨1, _⟩ => show win2_1.index t (1 : Fin 2) * 512 + 1 * q.val = t.val * 512 + q.val; omega
  rw [h0, h1]

/-- An index of the result array is in point `t`'s tile iff each coordinate is in the tile's range on its axis. -/
theorem mem_blk2 (t : Fin cfg2.N) (i : S5x4096.Idx) :
    i ∈ ((cfg2.win 2).blk t).view.set ↔ ∀ a : Fin 2, win2_2.index t a * S5x512.size a ≤ (i a).val ∧ (i a).val < win2_2.index t a * S5x512.size a + S5x512.size a := by
  show i ∈ ((View.whole main_v21).slice (win2_2.rect t)).set ↔ _
  rw [View.set_slice_whole, Rect.mem_set_unit]
  exact Iff.rfl

/-- THE ARRAY after the region: `pathOut 5` of the two input arrays as the region finds them. -/
theorem final2 (c : Dev nD) : (dat2 V c).arrAt 2 cfg2.N = pathOut 5 (V c main_v18) (V c main_v20) :=
  (dat2 V c).arrAt_eq_of_cover 2 (pathOut 5 (V c main_v18) (V c main_v20)) (fun t _ => flushed2_eq V c t) fun i => by
    have hi0 : (i 0).val < 5 := (i 0).isLt
    have hi1 : (i 1).val < 4096 := (i 1).isLt
    refine ⟨⟨(i 1).val / 512, by rw [show cfg2.N = 8 from N_2]; omega⟩, flush2_2 _, ?_⟩
    obtain ⟨e00, e01, e10, e11, e20, e21⟩ := idx_facts2 ⟨(i 1).val / 512, by rw [show cfg2.N = 8 from N_2]; omega⟩
    rw [mem_blk2]
    intro a
    match a with
    | ⟨0, _⟩ => show win2_2.index _ (0 : Fin 2) * 5 ≤ (i 0).val ∧ (i 0).val < win2_2.index _ (0 : Fin 2) * 5 + 5; rw [e20]; omega
    | ⟨1, _⟩ => show win2_2.index _ (1 : Fin 2) * 512 ≤ (i 1).val ∧ (i 1).val < win2_2.index _ (1 : Fin 2) * 512 + 512; rw [e21]; show (i 1).val / 512 * 512 ≤ (i 1).val ∧ (i 1).val < (i 1).val / 512 * 512 + 512; omega

end Cert.KernelIdeal.Hand

end
-- ==== Proof.KI.Value3.lean ====
/-
  The value region 3 leaves, at the ideal instance: the result array `[7, 4096]` after the region is `pathOut 7` of the
  region's two input arrays as it finds them. Tile `n` of the result is written at grid point `n` and is, index by
  index, the matrix unit's product of the resident block `x` with column tile `n` of `w`, a plain sum over the 4096
  contracted channels at the ideal values, times the scale; the eight tiles cover the array.
-/
import proofs.«181552_j81286551044362_1_alg».proof.Proof.KI.Region3
import proofs.«181552_j81286551044362_1_alg».proof.Proof.PathSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Path
open Idealize.ShloMosaic Idealize.ShloMosaic.TcCoe Idealize.ShloMosaic.ValueIdx Idealize.SL.Sem
open Idealize.ShloMosaic.Pipeline (Dat)
open scoped BigOperators

theorem hz3 : (![0, 0] : Fin 2 → Nat) = fun _ => 0 := funext fun a => by fin_cases a <;> rfl

/-! ## The matrix unit's product at an index -/

theorem dlhs3_0 (i : S7x512.Idx) (q : dot_S7x4096_S4096x512_S7x512_1_0_0_1_n_n.contr.Idx) :
    (dot_S7x4096_S4096x512_S7x512_1_0_0_1_n_n.lhsIdx i q 0).val = (i 0).val := by
  unfold DotDims.lhsIdx
  rw [dif_neg (show ¬(0 : Fin S7x4096.rank) ∈ dot_S7x4096_S4096x512_S7x512_1_0_0_1_n_n.lhsBatch by decide), dif_pos (show (0 : Fin S7x4096.rank) ∈ dot_S7x4096_S4096x512_S7x512_1_0_0_1_n_n.lhsNonContracting by decide)]
  rfl
theorem dlhs3_1 (i : S7x512.Idx) (q : dot_S7x4096_S4096x512_S7x512_1_0_0_1_n_n.contr.Idx) :
    (dot_S7x4096_S4096x512_S7x512_1_0_0_1_n_n.lhsIdx i q 1).val = (q ⟨0, by decide⟩).val :=
  dot_S7x4096_S4096x512_S7x512_1_0_0_1_n_n.lhsIdx_val_of_single rfl i q
theorem drhs3_0 (i : S7x512.Idx) (q : dot_S7x4096_S4096x512_S7x512_1_0_0_1_n_n.contr.Idx) :
    (dot_S7x4096_S4096x512_S7x512_1_0_0_1_n_n.rhsIdx i q 0).val = (q ⟨0, by decide⟩).val :=
  dot_S7x4096_S4096x512_S7x512_1_0_0_1_n_n.rhsIdx_val_of_single rfl i q
theorem drhs3_1 (i : S7x512.Idx) (q : dot_S7x4096_S4096x512_S7x512_1_0_0_1_n_n.contr.Idx) :
    (dot_S7x4096_S4096x512_S7x512_1_0_0_1_n_n.rhsIdx i q 1).val = (i 1).val := by
  unfold DotDims.rhsIdx
  rw [dif_neg (show ¬(1 : Fin S4096x512.rank) ∈ dot_S7x4096_S4096x512_S7x512_1_0_0_1_n_n.rhsBatch by decide), dif_pos (show (1 : Fin S4096x512.rank) ∈ dot_S7x4096_S4096x512_S7x512_1_0_0_1_n_n.rhsNonContracting by decide)]
  rfl

/-- Into a zero accumulator the product at `(p, q)` is the sum over the contracted channel `u` of `a[p, u] · b[u, q]`. -/
theorem mm3_apply (a : FVec Ideal S7x4096 .bf16) (b : FVec Ideal S4096x512 .bf16) (p : Fin 7) (q : Fin 512) :
    matmul dot_S7x4096_S4096x512_S7x512_1_0_0_1_n_n none a b (constant S7x512 .f32 0x00000000#32) (ix2 p q) = ∑ u : Fin 4096, a (ix2 p u) * b (ix2 u q) := by
  simp only [matmul]
  rw [Ideal.matmul_constant_zero_apply, ← Equiv.sum_comp (contrEquiv1 dot_S7x4096_S4096x512_S7x512_1_0_0_1_n_n 4096 rfl rfl).symm]
  refine Finset.sum_congr rfl fun k _ => ?_
  have hk := contrEquiv1_symm_val dot_S7x4096_S4096x512_S7x512_1_0_0_1_n_n 4096 rfl rfl k
  have el : dot_S7x4096_S4096x512_S7x512_1_0_0_1_n_n.lhsIdx (ix2 p q) ((contrEquiv1 dot_S7x4096_S4096x512_S7x512_1_0_0_1_n_n 4096 rfl rfl).symm k) = ix2 p k := funext fun a => Fin.ext (by
    match a with
    | ⟨0, _⟩ => exact dlhs3_0 _ _
    | ⟨1, _⟩ => exact (dlhs3_1 _ _).trans hk)
  have er : dot_S7x4096_S4096x512_S7x512_1_0_0_1_n_n.rhsIdx (ix2 p q) ((contrEquiv1 dot_S7x4096_S4096x512_S7x512_1_0_0_1_n_n 4096 rfl rfl).symm k) = ix2 k q := funext fun a => Fin.ext (by
    match a with
    | ⟨0, _⟩ => exact (drhs3_0 _ _).trans hk
    | ⟨1, _⟩ => exact drhs3_1 _ _)
  rw [el, er]

/-- The body's payload at `(p, q)`: the casts are the identity at the ideal values, so it is that sum times the scale. -/
theorem pay3_apply (x0 : Vec Ideal S7x4096 .f32) (x1 : Vec Ideal S4096x512 .f32) (p : Fin 7) (q : Fin 512) :
    k3_pay1 (F := Ideal) x0 x1 (ix2 p q) = (∑ u : Fin 4096, x0 (ix2 p u) * x1 (ix2 u q)) * scale := by
  unfold k3_pay1
  rw [shapeCast_self, shapeCast_self]
  exact congrArg (· * scale) (mm3_apply _ _ p q)

/-! ## Tile by tile -/

variable (V : (c : Dev nD) → (b : Ref sig .tc) → Buf (Elt Ideal) ((c : Thread nD τ).loc b))

/-- The printed index maps over the grid: the resident block never moves; the matrix tile and the result tile are at
    column block `t`. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = t.val
    ∧ win3_2.index t (0 : Fin 2) = 0 ∧ win3_2.index t (1 : Fin 2) = t.val :=
  (by decide +kernel : ∀ t : Fin grid3.N, _)

/-- WHAT POINT `t` WRITES BACK is tile `t` of `pathOut 7` of the two input arrays as the region finds them. -/
theorem flushed3_eq (c : Dev nD) (t : Fin cfg3.N) :
    (dat3 V c).flushed 2 t = ((cfg3.win 2).blk t).view.read (Elt Ideal) (pathOut 7 (V c main_v26) (V c main_v28)) := by
  show (cfg3.win 2).cut (grid3.coords t) ((dat3 V c).after 2 t) = _
  rw [after3_2]
  unfold out3_2
  rw [View.canon_unit_zero hz3]
  simp only [View.ld_unit_zero (S := S7x4096) hz3, View.ld_unit_zero (S := S4096x512) hz3]
  obtain ⟨e00, e01, e10, e11, e20, e21⟩ := idx_facts3 t
  have ht : t.val < 8 := by have h := t.isLt; have hN : cfg3.N = 8 := N_3; omega
  funext j
  obtain ⟨p, q, rfl⟩ : ∃ (p : Fin 7) (q : Fin 512), j = ix2 p q := ⟨j 0, j 1, eq_ix2 j⟩
  have hq : q.val < 512 := q.isLt
  have hp : p.val < 7 := p.isLt
  show k3_pay1 (F := Ideal) (iblk3 V c 0 t) (iblk3 V c 1 t) (ix2 p q) = pathOut 7 (V c main_v26) (V c main_v28) (((cfg3.win 2).blk t).view.emb (ix2 p q))
  refine (pay3_apply _ _ p q).trans ?_
  have hemb : ((cfg3.win 2).blk t).view.emb (ix2 p q) = ix2 p (⟨t.val * 512 + q.val, by omega⟩ : Fin 4096) := by
    funext a; apply Fin.ext
    match a with
    | ⟨0, _⟩ => show win3_2.index t (0 : Fin 2) * 7 + 1 * p.val = p.val; omega
    | ⟨1, _⟩ => show win3_2.index t (1 : Fin 2) * 512 + 1 * q.val = t.val * 512 + q.val; omega
  rw [hemb, pathOut_apply]
  refine congrArg (· * scale) (Finset.sum_congr rfl fun u _ => ?_)
  have hu : u.val < 4096 := u.isLt
  have h0 : iblk3 V c 0 t (ix2 p u) = V c main_v26 (ix2 p u) := by
    show V c main_v26 (((cfg3.win 0).blk t).view.emb (ix2 p u)) = V c main_v26 (ix2 p u)
    refine congrArg _ (funext fun a => Fin.ext ?_)
    match a with
    | ⟨0, _⟩ => show win3_0.index t (0 : Fin 2) * 7 + 1 * p.val = p.val; omega
    | ⟨1, _⟩ => show win3_0.index t (1 : Fin 2) * 4096 + 1 * u.val = u.val; omega
  have h1 : iblk3 V c 1 t (ix2 u q) = V c main_v28 (ix2 u (⟨t.val * 512 + q.val, by omega⟩ : Fin 4096)) := by
    show V c main_v28 (((cfg3.win 1).blk t).view.emb (ix2 u q)) = V c main_v28 (ix2 u (⟨t.val * 512 + q.val, by omega⟩ : Fin 4096))
    refine congrArg _ (funext fun a => Fin.ext ?_)
    match a with
    | ⟨0, _⟩ => show win3_1.index t (0 : Fin 2) * 4096 + 1 * u.val = u.val; omega
    | ⟨1, _⟩ => show win3_1.index t (1 : Fin 2) * 512 + 1 * q.val = t.val * 512 + q.val; omega
  rw [h0, h1]

/-- An index of the result array is in point `t`'s tile iff each coordinate is in the tile's range on its axis. -/
theorem mem_blk3 (t : Fin cfg3.N) (i : S7x4096.Idx) :
    i ∈ ((cfg3.win 2).blk t).view.set ↔ ∀ a : Fin 2, win3_2.index t a * S7x512.size a ≤ (i a).val ∧ (i a).val < win3_2.index t a * S7x512.size a + S7x512.size a := by
  show i ∈ ((View.whole main_v29).slice (win3_2.rect t)).set ↔ _
  rw [View.set_slice_whole, Rect.mem_set_unit]
  exact Iff.rfl

/-- THE ARRAY after the region: `pathOut 7` of the two input arrays as the region finds them. -/
theorem final3 (c : Dev nD) : (dat3 V c).arrAt 2 cfg3.N = pathOut 7 (V c main_v26) (V c main_v28) :=
  (dat3 V c).arrAt_eq_of_cover 2 (pathOut 7 (V c main_v26) (V c main_v28)) (fun t _ => flushed3_eq V c t) fun i => by
    have hi0 : (i 0).val < 7 := (i 0).isLt
    have hi1 : (i 1).val < 4096 := (i 1).isLt
    refine ⟨⟨(i 1).val / 512, by rw [show cfg3.N = 8 from N_3]; omega⟩, flush3_2 _, ?_⟩
    obtain ⟨e00, e01, e10, e11, e20, e21⟩ := idx_facts3 ⟨(i 1).val / 512, by rw [show cfg3.N = 8 from N_3]; omega⟩
    rw [mem_blk3]
    intro a
    match a with
    | ⟨0, _⟩ => show win3_2.index _ (0 : Fin 2) * 7 ≤ (i 0).val ∧ (i 0).val < win3_2.index _ (0 : Fin 2) * 7 + 7; rw [e20]; omega
    | ⟨1, _⟩ => show win3_2.index _ (1 : Fin 2) * 512 ≤ (i 1).val ∧ (i 1).val < win3_2.index _ (1 : Fin 2) * 512 + 512; rw [e21]; show (i 1).val / 512 * 512 ≤ (i 1).val ∧ (i 1).val < (i 1).val / 512 * 512 + 512; omega

end Cert.KernelIdeal.Hand

end
-- ==== Proof.Piece0.lean ====
/-
  Region 0's piece of the result as one term of the two argument arrays, in the kernel program's own spelling: the
  host operations before the region cut 4096 entries out of the input, read them as `[4096, 1]` and transpose to the
  block `x : [1, 4096]`; they cut the region's `4096 · 4096` weights out and read them as `w : [4096, 4096]`; the region
  leaves `pathOut 1 x w : [1, 4096]`; the host operations after it transpose back to `[4096, 1]` and flatten.
-/
import proofs.«181552_j81286551044362_1_alg».proof.Proof.Gen.KernelIdeal
import proofs.«181552_j81286551044362_1_alg».proof.Proof.PathSpec

noncomputable section

namespace Cert.KernelIdeal.Hand

open Cert.KernelIdeal Cert.KernelIdeal.Gen Cert.Path
open Idealize.ShloMosaic

/-- The block region 0 reads: the input's slice as `[4096, 1]`, transposed. -/
def xin0 (a0 : FVec Ideal S65536 .f32) : FVec Ideal S1x4096 .f32 :=
  transpose S1x4096 [1, 0] (shapeCast S4096x1 (extractStridedSlice S4096 ![0] a0 slices_S65536_S4096_0) shapeCasts_S4096_S4096x1) transposes_S4096x1_S1x4096_1_0

/-- The matrix region 0 reads: the weights' slice as `[4096, 4096]`. -/
def wmat0 (a1 : FVec Ideal S67108864 .f32) : FVec Ideal S4096x4096 .f32 :=
  shapeCast S4096x4096 (extractStridedSlice S16777216 ![0] a1 slices_S67108864_S16777216_0) shapeCasts_S16777216_S4096x4096

/-- Region 0's piece of the flat result. -/
def kerPiece0 (a0 : FVec Ideal S65536 .f32) (a1 : FVec Ideal S67108864 .f32) : FVec Ideal S4096 .f32 :=
  shapeCast S4096 (transpose S4096x1 [1, 0] (pathOut 1 (xin0 a0) (wmat0 a1)) transposes_S1x4096_S4096x1_1_0) shapeCasts_S4096x1_S4096

end Cert.KernelIdeal.Hand

end
-- ==== Proof.Piece1.lean ====
/-
  Region 1's piece of the result as one term of the two argument arrays, in the kernel program's own spelling: the
  host operations before the region cut 12288 entries out of the input, read them as `[4096, 3]` and transpose to the
  block `x : [3, 4096]`; they cut the region's `4096 · 4096` weights out and read them as `w : [4096, 4096]`; the region
  leaves `pathOut 3 x w : [3, 4096]`; the host operations after it transpose back to `[4096, 3]` and flatten.
-/
import proofs.«181552_j81286551044362_1_alg».proof.Proof.Gen.KernelIdeal
import proofs.«181552_j81286551044362_1_alg».proof.Proof.PathSpec

noncomputable section

namespace Cert.KernelIdeal.Hand

open Cert.KernelIdeal Cert.KernelIdeal.Gen Cert.Path
open Idealize.ShloMosaic

/-- The block region 1 reads: the input's slice as `[4096, 3]`, transposed. -/
def xin1 (a0 : FVec Ideal S65536 .f32) : FVec Ideal S3x4096 .f32 :=
  transpose S3x4096 [1, 0] (shapeCast S4096x3 (extractStridedSlice S12288 ![4096] a0 slices_S65536_S12288_4096) shapeCasts_S12288_S4096x3) transposes_S4096x3_S3x4096_1_0

/-- The matrix region 1 reads: the weights' slice as `[4096, 4096]`. -/
def wmat1 (a1 : FVec Ideal S67108864 .f32) : FVec Ideal S4096x4096 .f32 :=
  shapeCast S4096x4096 (extractStridedSlice S16777216 ![16777216] a1 slices_S67108864_S16777216_16777216) shapeCasts_S16777216_S4096x4096

/-- Region 1's piece of the flat result. -/
def kerPiece1 (a0 : FVec Ideal S65536 .f32) (a1 : FVec Ideal S67108864 .f32) : FVec Ideal S12288 .f32 :=
  shapeCast S12288 (transpose S4096x3 [1, 0] (pathOut 3 (xin1 a0) (wmat1 a1)) transposes_S3x4096_S4096x3_1_0) shapeCasts_S4096x3_S12288

end Cert.KernelIdeal.Hand

end
-- ==== Proof.Piece2.lean ====
/-
  Region 2's piece of the result as one term of the two argument arrays, in the kernel program's own spelling: the
  host operations before the region cut 20480 entries out of the input, read them as `[4096, 5]` and transpose to the
  block `x : [5, 4096]`; they cut the region's `4096 · 4096` weights out and read them as `w : [4096, 4096]`; the region
  leaves `pathOut 5 x w : [5, 4096]`; the host operations after it transpose back to `[4096, 5]` and flatten.
-/
import proofs.«181552_j81286551044362_1_alg».proof.Proof.Gen.KernelIdeal
import proofs.«181552_j81286551044362_1_alg».proof.Proof.PathSpec

noncomputable section

namespace Cert.KernelIdeal.Hand

open Cert.KernelIdeal Cert.KernelIdeal.Gen Cert.Path
open Idealize.ShloMosaic

/-- The block region 2 reads: the input's slice as `[4096, 5]`, transposed. -/
def xin2 (a0 : FVec Ideal S65536 .f32) : FVec Ideal S5x4096 .f32 :=
  transpose S5x4096 [1, 0] (shapeCast S4096x5 (extractStridedSlice S20480 ![16384] a0 slices_S65536_S20480_16384) shapeCasts_S20480_S4096x5) transposes_S4096x5_S5x4096_1_0

/-- The matrix region 2 reads: the weights' slice as `[4096, 4096]`. -/
def wmat2 (a1 : FVec Ideal S67108864 .f32) : FVec Ideal S4096x4096 .f32 :=
  shapeCast S4096x4096 (extractStridedSlice S16777216 ![33554432] a1 slices_S67108864_S16777216_33554432) shapeCasts_S16777216_S4096x4096

/-- Region 2's piece of the flat result. -/
def kerPiece2 (a0 : FVec Ideal S65536 .f32) (a1 : FVec Ideal S67108864 .f32) : FVec Ideal S20480 .f32 :=
  shapeCast S20480 (transpose S4096x5 [1, 0] (pathOut 5 (xin2 a0) (wmat2 a1)) transposes_S5x4096_S4096x5_1_0) shapeCasts_S4096x5_S20480

end Cert.KernelIdeal.Hand

end
-- ==== Proof.Piece3.lean ====
/-
  Region 3's piece of the result as one term of the two argument arrays, in the kernel program's own spelling: the
  host operations before the region cut 28672 entries out of the input, read them as `[4096, 7]` and transpose to the
  block `x : [7, 4096]`; they cut the region's `4096 · 4096` weights out and read them as `w : [4096, 4096]`; the region
  leaves `pathOut 7 x w : [7, 4096]`; the host operations after it transpose back to `[4096, 7]` and flatten.
-/
import proofs.«181552_j81286551044362_1_alg».proof.Proof.Gen.KernelIdeal
import proofs.«181552_j81286551044362_1_alg».proof.Proof.PathSpec

noncomputable section

namespace Cert.KernelIdeal.Hand

open Cert.KernelIdeal Cert.KernelIdeal.Gen Cert.Path
open Idealize.ShloMosaic

/-- The block region 3 reads: the input's slice as `[4096, 7]`, transposed. -/
def xin3 (a0 : FVec Ideal S65536 .f32) : FVec Ideal S7x4096 .f32 :=
  transpose S7x4096 [1, 0] (shapeCast S4096x7 (extractStridedSlice S28672 ![36864] a0 slices_S65536_S28672_36864) shapeCasts_S28672_S4096x7) transposes_S4096x7_S7x4096_1_0

/-- The matrix region 3 reads: the weights' slice as `[4096, 4096]`. -/
def wmat3 (a1 : FVec Ideal S67108864 .f32) : FVec Ideal S4096x4096 .f32 :=
  shapeCast S4096x4096 (extractStridedSlice S16777216 ![50331648] a1 slices_S67108864_S16777216_50331648) shapeCasts_S16777216_S4096x4096

/-- Region 3's piece of the flat result. -/
def kerPiece3 (a0 : FVec Ideal S65536 .f32) (a1 : FVec Ideal S67108864 .f32) : FVec Ideal S28672 .f32 :=
  shapeCast S28672 (transpose S4096x7 [1, 0] (pathOut 7 (xin3 a0) (wmat3 a1)) transposes_S7x4096_S4096x7_1_0) shapeCasts_S4096x7_S28672

end Cert.KernelIdeal.Hand

end
-- ==== Proof.KI.Value.lean ====
/-
  What the whole program leaves in its result buffer, at the ideal instance: the concatenation of the four paths'
  pieces, each a term of the two argument arrays (`kerPiece k`). Region `k` finds the block and the matrix the host
  stretch before it made from the arguments (no earlier item writes an argument); it leaves `pathOut` of them in
  its result array; the stretch after it transposes and flattens that array into the piece; no later region or
  stretch writes a piece before the last operation concatenates the four.
-/
import proofs.«181552_j81286551044362_1_alg».proof.Proof.KI.Launch
import proofs.«181552_j81286551044362_1_alg».proof.Proof.KI.Value0
import proofs.«181552_j81286551044362_1_alg».proof.Proof.KI.Value1
import proofs.«181552_j81286551044362_1_alg».proof.Proof.KI.Value2
import proofs.«181552_j81286551044362_1_alg».proof.Proof.KI.Value3
import proofs.«181552_j81286551044362_1_alg».proof.Proof.Piece0
import proofs.«181552_j81286551044362_1_alg».proof.Proof.Piece1
import proofs.«181552_j81286551044362_1_alg».proof.Proof.Piece2
import proofs.«181552_j81286551044362_1_alg».proof.Proof.Piece3
import Idealize.ShloMosaic.Lib.StableHlo.Run

set_option maxRecDepth 16384

noncomputable section

namespace Cert.KernelIdeal.Hand

open Cert.KernelIdeal Cert.KernelIdeal.Gen Cert.Path
open Idealize.ShloMosaic Idealize.ShloMosaic.TcCoe Idealize.SL.Sem Idealize.ShloMosaic.StableHlo

variable (m : (ℓ : Loc nD τ sig) → Buf (Elt Ideal) ℓ)

/-- The first argument as launched, on core `c`. -/
abbrev arg0 (c : Dev nD) : FVec Ideal S65536 .f32 := m ((c : Thread nD τ).loc main_arg0)
/-- The second argument as launched, on core `c`. -/
abbrev arg1 (c : Dev nD) : FVec Ideal S67108864 .f32 := m ((c : Thread nD τ).loc main_arg1)

/-! ## The arguments where each region's stretch reads them -/

theorem out0_arg0 (c : Dev nD) : Bout0 m c main_arg0 = arg0 m c := (Bout0_of_ne m c main_arg0 (by decide)).trans (kept_arg0 m c).1
theorem out0_arg1 (c : Dev nD) : Bout0 m c main_arg1 = arg1 m c := (Bout0_of_ne m c main_arg1 (by decide)).trans (kept_arg1 m c).1
theorem out1_arg0 (c : Dev nD) : Bout1 m c main_arg0 = arg0 m c := (Bout1_of_ne m c main_arg0 (by decide)).trans (kept_arg0 m c).2.1
theorem out1_arg1 (c : Dev nD) : Bout1 m c main_arg1 = arg1 m c := (Bout1_of_ne m c main_arg1 (by decide)).trans (kept_arg1 m c).2.1
theorem out2_arg0 (c : Dev nD) : Bout2 m c main_arg0 = arg0 m c := (Bout2_of_ne m c main_arg0 (by decide)).trans (kept_arg0 m c).2.2.1
theorem out2_arg1 (c : Dev nD) : Bout2 m c main_arg1 = arg1 m c := (Bout2_of_ne m c main_arg1 (by decide)).trans (kept_arg1 m c).2.2.1

/-! ## What each region finds -/

theorem in0_x (c : Dev nD) : Ein0 m c main_v2 = xin0 (arg0 m c) := by
  show StableHlo.after hostOps0 (B0 m c) (Proc.devRef .tc main_v2) = _
  after_results; rfl
theorem in0_w (c : Dev nD) : Ein0 m c main_v4 = wmat0 (arg1 m c) := by
  show StableHlo.after hostOps0 (B0 m c) (Proc.devRef .tc main_v4) = _
  after_results; rfl
theorem in1_x (c : Dev nD) : Ein1 m c main_v10 = xin1 (arg0 m c) := by
  show StableHlo.after hostOps1 (Bout0 m c) (Proc.devRef .tc main_v10) = _
  after_results; rw [out0_arg0]; rfl
theorem in1_w (c : Dev nD) : Ein1 m c main_v12 = wmat1 (arg1 m c) := by
  show StableHlo.after hostOps1 (Bout0 m c) (Proc.devRef .tc main_v12) = _
  after_results; rw [out0_arg1]; rfl
theorem in2_x (c : Dev nD) : Ein2 m c main_v18 = xin2 (arg0 m c) := by
  show StableHlo.after hostOps2 (Bout1 m c) (Proc.devRef .tc main_v18) = _
  after_results; rw [out1_arg0]; rfl
theorem in2_w (c : Dev nD) : Ein2 m c main_v20 = wmat2 (arg1 m c) := by
  show StableHlo.after hostOps2 (Bout1 m c) (Proc.devRef .tc main_v20) = _
  after_results; rw [out1_arg1]; rfl
theorem in3_x (c : Dev nD) : Ein3 m c main_v26 = xin3 (arg0 m c) := by
  show StableHlo.after hostOps3 (Bout2 m c) (Proc.devRef .tc main_v26) = _
  after_results; rw [out2_arg0]; rfl
theorem in3_w (c : Dev nD) : Ein3 m c main_v28 = wmat3 (arg1 m c) := by
  show StableHlo.after hostOps3 (Bout2 m c) (Proc.devRef .tc main_v28) = _
  after_results; rw [out2_arg1]; rfl

/-! ## What each region leaves in its result array -/

theorem res0 (c : Dev nD) : Bout0 m c main_v5 = pathOut 1 (xin0 (arg0 m c)) (wmat0 (arg1 m c)) := by
  rw [← in0_x, ← in0_w]; exact (Bout0_arr m c 2).trans (final0 (Ein0 m) c)
theorem res1 (c : Dev nD) : Bout1 m c main_v13 = pathOut 3 (xin1 (arg0 m c)) (wmat1 (arg1 m c)) := by
  rw [← in1_x, ← in1_w]; exact (Bout1_arr m c 2).trans (final1 (Ein1 m) c)
theorem res2 (c : Dev nD) : Bout2 m c main_v21 = pathOut 5 (xin2 (arg0 m c)) (wmat2 (arg1 m c)) := by
  rw [← in2_x, ← in2_w]; exact (Bout2_arr m c 2).trans (final2 (Ein2 m) c)
theorem res3 (c : Dev nD) : Bout3 m c main_v29 = pathOut 7 (xin3 (arg0 m c)) (wmat3 (arg1 m c)) := by
  rw [← in3_x, ← in3_w]; exact (Bout3_arr m c 2).trans (final3 (Ein3 m) c)

/-! ## The pieces, where the last operation reads them -/

theorem piece_v7 (c : Dev nD) : Bout3 m c main_v7 = kerPiece0 (arg0 m c) (arg1 m c) := by
  have carry : Bout3 m c main_v7 = Bin1 m c main_v7 :=
    (Bout3_of_ne m c main_v7 (by decide)).trans <| (Bin3_of m c main_v7 (by decide)).trans <|
      (Bout2_of_ne m c main_v7 (by decide)).trans <| (Bin2_of m c main_v7 (by decide)).trans (Bout1_of_ne m c main_v7 (by decide))
  rw [carry]
  show StableHlo.after hostOps1 (Bout0 m c) (Proc.devRef .tc main_v7) = _
  after_results; rw [res0]; rfl
theorem piece_v15 (c : Dev nD) : Bout3 m c main_v15 = kerPiece1 (arg0 m c) (arg1 m c) := by
  have carry : Bout3 m c main_v15 = Bin2 m c main_v15 :=
    (Bout3_of_ne m c main_v15 (by decide)).trans <| (Bin3_of m c main_v15 (by decide)).trans (Bout2_of_ne m c main_v15 (by decide))
  rw [carry]
  show StableHlo.after hostOps2 (Bout1 m c) (Proc.devRef .tc main_v15) = _
  after_results; rw [res1]; rfl
theorem piece_v23 (c : Dev nD) : Bout3 m c main_v23 = kerPiece2 (arg0 m c) (arg1 m c) := by
  rw [Bout3_of_ne m c main_v23 (by decide)]
  show StableHlo.after hostOps3 (Bout2 m c) (Proc.devRef .tc main_v23) = _
  after_results; rw [res2]; rfl

/-- THE RESULT: at the end the result buffer holds the four pieces, concatenated. -/
theorem end_v32 (c : Dev nD) : Bend m c main_v32 = concatenate S65536 0 [⟨S4096, kerPiece0 (arg0 m c) (arg1 m c)⟩, ⟨S12288, kerPiece1 (arg0 m c) (arg1 m c)⟩, ⟨S20480, kerPiece2 (arg0 m c) (arg1 m c)⟩, ⟨S28672, kerPiece3 (arg0 m c) (arg1 m c)⟩] concatenates_S4096_S12288_S20480_S28672_S65536_d0 := by
  rw [← piece_v7 m c, ← piece_v15 m c, ← piece_v23 m c]
  unfold kerPiece3
  rw [← res3 m c]
  show StableHlo.after hostOps4 (Bout3 m c) (Proc.devRef .tc main_v32) = _
  after_results_simp <;> rfl

end Cert.KernelIdeal.Hand

end
-- ==== Proof.Bridge0.lean ====
/-
  Region 0's piece is the reference's piece. At flat index `j`, with `(v, i)` its row-major coordinates in
  `[4096, 1]`, the kernel's piece is `pathOut 1 x w` at `(i, v)`, that is `(∑ u, x[i, u] · w[u, v]) · scale` with `x[i, u]` the input's slice at `(u, i)`; the reference's is
  its `dot_general` of the same two arrays at `(v, i)`, `∑ u, w[u, v] · chunk[u, i]`, times the same scale word. The two
  sums differ in the order of the factors only.
-/
import proofs.«181552_j81286551044362_1_alg».proof.Proof.Piece0
import proofs.«181552_j81286551044362_1_alg».proof.Proof.Gen.ReferenceIdeal.Read
import Idealize.ShloMosaic.Lib.Pipeline.Value
import Idealize.ShloMosaic.Lib.ValueIdx

noncomputable section

namespace Cert.KernelIdeal.Hand

open Cert.Path
open Idealize.ShloMosaic Idealize.ShloMosaic.ValueIdx
open scoped BigOperators

theorem bridge0 (a0 : FVec Ideal Cert.KernelIdeal.S65536 .f32) (a1 : FVec Ideal Cert.KernelIdeal.S67108864 .f32) :
    kerPiece0 a0 a1 = Cert.ReferenceIdeal.Read.val_main_v7 (F := Ideal) a0 a1 := by
  funext j
  have hj : (j 0).val < 4096 := (j 0).isLt
  -- the reference's row-major coordinates of `j`
  have c0 : (Cert.ReferenceIdeal.Read.idx_main_v5 j 0).val = (j 0).val / 1 := rfl
  have c1 : (Cert.ReferenceIdeal.Read.idx_main_v5 j 1).val = (j 0).val % 1 := by
    first | rfl | (show (0 : Nat) = (j 0).val % 1; omega)
  rw [Cert.ReferenceIdeal.Read.val_main_v7_apply, Cert.ReferenceIdeal.Read.val_main_v5_apply,
    Cert.ReferenceIdeal.Read.val_main_v4_apply, Cert.ReferenceIdeal.Read.val_main_v6_apply,
    Cert.ReferenceIdeal.Read.val_main_cst_apply]
  unfold kerPiece0
  refine (shapeCast_apply _ _ j (Cert.ReferenceIdeal.Read.idx_main_v5 j) (by
    rewrite [Shape.rowMajor_val_two, Shape.rowMajor_val_one]
    show (Cert.ReferenceIdeal.Read.idx_main_v5 j 0).val * 1 + (Cert.ReferenceIdeal.Read.idx_main_v5 j 1).val = (j 0).val
    rw [c0, c1]; omega)).trans ?_
  refine (transpose_apply [1, 0] _ _ (Cert.ReferenceIdeal.Read.idx_main_v5 j)
    (ix2 (⟨(j 0).val % 1, by omega⟩ : Fin 1) (⟨(j 0).val / 1, by omega⟩ : Fin 4096)) (fun b => by
      match b with
      | ⟨0, _⟩ => exact c0.symm
      | ⟨1, _⟩ => exact c1.symm)).trans ?_
  rw [pathOut_apply]
  refine congrArg₂ (· * ·) (Finset.sum_congr rfl fun u _ => ?_) rfl
  rw [mul_comm]
  refine congrArg₂ (· * ·) ?_ ?_
  · show Cert.ReferenceIdeal.Read.val_main_v3 (F := Ideal) a1 _ = _
    refine congrArg _ (funext fun a => Fin.ext ?_)
    match a with
    | ⟨0, _⟩ => rfl
    | ⟨1, _⟩ => exact c0.symm
  · unfold xin0
    refine (transpose_apply [1, 0] _ _ _ (Cert.ReferenceIdeal.Read.ridx_main_v4 (Cert.ReferenceIdeal.Read.idx_main_v5 j) u) (fun b => by
      match b with
      | ⟨0, _⟩ => exact c1
      | ⟨1, _⟩ => rfl)).trans ?_
    rfl

end Cert.KernelIdeal.Hand

end
-- ==== Proof.Bridge1.lean ====
/-
  Region 1's piece is the reference's piece. At flat index `j`, with `(v, i)` its row-major coordinates in
  `[4096, 3]`, the kernel's piece is `pathOut 3 x w` at `(i, v)`, that is `(∑ u, x[i, u] · w[u, v]) · scale` with `x[i, u]` the input's slice at `(u, i)`; the reference's is
  its `dot_general` of the same two arrays at `(v, i)`, `∑ u, w[u, v] · chunk[u, i]`, times the same scale word. The two
  sums differ in the order of the factors only.
-/
import proofs.«181552_j81286551044362_1_alg».proof.Proof.Piece1
import proofs.«181552_j81286551044362_1_alg».proof.Proof.Gen.ReferenceIdeal.Read
import Idealize.ShloMosaic.Lib.Pipeline.Value
import Idealize.ShloMosaic.Lib.ValueIdx

noncomputable section

namespace Cert.KernelIdeal.Hand

open Cert.Path
open Idealize.ShloMosaic Idealize.ShloMosaic.ValueIdx
open scoped BigOperators

theorem bridge1 (a0 : FVec Ideal Cert.KernelIdeal.S65536 .f32) (a1 : FVec Ideal Cert.KernelIdeal.S67108864 .f32) :
    kerPiece1 a0 a1 = Cert.ReferenceIdeal.Read.val_main_v15 (F := Ideal) a0 a1 := by
  funext j
  have hj : (j 0).val < 12288 := (j 0).isLt
  -- the reference's row-major coordinates of `j`
  have c0 : (Cert.ReferenceIdeal.Read.idx_main_v13 j 0).val = (j 0).val / 3 := rfl
  have c1 : (Cert.ReferenceIdeal.Read.idx_main_v13 j 1).val = (j 0).val % 3 := by
    first | rfl | (show (0 : Nat) = (j 0).val % 3; omega)
  rw [Cert.ReferenceIdeal.Read.val_main_v15_apply, Cert.ReferenceIdeal.Read.val_main_v13_apply,
    Cert.ReferenceIdeal.Read.val_main_v12_apply, Cert.ReferenceIdeal.Read.val_main_v14_apply,
    Cert.ReferenceIdeal.Read.val_main_cst_0_apply]
  unfold kerPiece1
  refine (shapeCast_apply _ _ j (Cert.ReferenceIdeal.Read.idx_main_v13 j) (by
    rewrite [Shape.rowMajor_val_two, Shape.rowMajor_val_one]
    show (Cert.ReferenceIdeal.Read.idx_main_v13 j 0).val * 3 + (Cert.ReferenceIdeal.Read.idx_main_v13 j 1).val = (j 0).val
    rw [c0, c1]; omega)).trans ?_
  refine (transpose_apply [1, 0] _ _ (Cert.ReferenceIdeal.Read.idx_main_v13 j)
    (ix2 (⟨(j 0).val % 3, by omega⟩ : Fin 3) (⟨(j 0).val / 3, by omega⟩ : Fin 4096)) (fun b => by
      match b with
      | ⟨0, _⟩ => exact c0.symm
      | ⟨1, _⟩ => exact c1.symm)).trans ?_
  rw [pathOut_apply]
  refine congrArg₂ (· * ·) (Finset.sum_congr rfl fun u _ => ?_) rfl
  rw [mul_comm]
  refine congrArg₂ (· * ·) ?_ ?_
  · show Cert.ReferenceIdeal.Read.val_main_v11 (F := Ideal) a1 _ = _
    refine congrArg _ (funext fun a => Fin.ext ?_)
    match a with
    | ⟨0, _⟩ => rfl
    | ⟨1, _⟩ => exact c0.symm
  · unfold xin1
    refine (transpose_apply [1, 0] _ _ _ (Cert.ReferenceIdeal.Read.ridx_main_v12 (Cert.ReferenceIdeal.Read.idx_main_v13 j) u) (fun b => by
      match b with
      | ⟨0, _⟩ => exact c1
      | ⟨1, _⟩ => rfl)).trans ?_
    rfl

end Cert.KernelIdeal.Hand

end
-- ==== Proof.Bridge2.lean ====
/-
  Region 2's piece is the reference's piece. At flat index `j`, with `(v, i)` its row-major coordinates in
  `[4096, 5]`, the kernel's piece is `pathOut 5 x w` at `(i, v)`, that is `(∑ u, x[i, u] · w[u, v]) · scale` with `x[i, u]` the input's slice at `(u, i)`; the reference's is
  its `dot_general` of the same two arrays at `(v, i)`, `∑ u, w[u, v] · chunk[u, i]`, times the same scale word. The two
  sums differ in the order of the factors only.
-/
import proofs.«181552_j81286551044362_1_alg».proof.Proof.Piece2
import proofs.«181552_j81286551044362_1_alg».proof.Proof.Gen.ReferenceIdeal.Read
import Idealize.ShloMosaic.Lib.Pipeline.Value
import Idealize.ShloMosaic.Lib.ValueIdx

noncomputable section

namespace Cert.KernelIdeal.Hand

open Cert.Path
open Idealize.ShloMosaic Idealize.ShloMosaic.ValueIdx
open scoped BigOperators

theorem bridge2 (a0 : FVec Ideal Cert.KernelIdeal.S65536 .f32) (a1 : FVec Ideal Cert.KernelIdeal.S67108864 .f32) :
    kerPiece2 a0 a1 = Cert.ReferenceIdeal.Read.val_main_v23 (F := Ideal) a0 a1 := by
  funext j
  have hj : (j 0).val < 20480 := (j 0).isLt
  -- the reference's row-major coordinates of `j`
  have c0 : (Cert.ReferenceIdeal.Read.idx_main_v21 j 0).val = (j 0).val / 5 := rfl
  have c1 : (Cert.ReferenceIdeal.Read.idx_main_v21 j 1).val = (j 0).val % 5 := by
    first | rfl | (show (0 : Nat) = (j 0).val % 5; omega)
  rw [Cert.ReferenceIdeal.Read.val_main_v23_apply, Cert.ReferenceIdeal.Read.val_main_v21_apply,
    Cert.ReferenceIdeal.Read.val_main_v20_apply, Cert.ReferenceIdeal.Read.val_main_v22_apply,
    Cert.ReferenceIdeal.Read.val_main_cst_1_apply]
  unfold kerPiece2
  refine (shapeCast_apply _ _ j (Cert.ReferenceIdeal.Read.idx_main_v21 j) (by
    rewrite [Shape.rowMajor_val_two, Shape.rowMajor_val_one]
    show (Cert.ReferenceIdeal.Read.idx_main_v21 j 0).val * 5 + (Cert.ReferenceIdeal.Read.idx_main_v21 j 1).val = (j 0).val
    rw [c0, c1]; omega)).trans ?_
  refine (transpose_apply [1, 0] _ _ (Cert.ReferenceIdeal.Read.idx_main_v21 j)
    (ix2 (⟨(j 0).val % 5, by omega⟩ : Fin 5) (⟨(j 0).val / 5, by omega⟩ : Fin 4096)) (fun b => by
      match b with
      | ⟨0, _⟩ => exact c0.symm
      | ⟨1, _⟩ => exact c1.symm)).trans ?_
  rw [pathOut_apply]
  refine congrArg₂ (· * ·) (Finset.sum_congr rfl fun u _ => ?_) rfl
  rw [mul_comm]
  refine congrArg₂ (· * ·) ?_ ?_
  · show Cert.ReferenceIdeal.Read.val_main_v19 (F := Ideal) a1 _ = _
    refine congrArg _ (funext fun a => Fin.ext ?_)
    match a with
    | ⟨0, _⟩ => rfl
    | ⟨1, _⟩ => exact c0.symm
  · unfold xin2
    refine (transpose_apply [1, 0] _ _ _ (Cert.ReferenceIdeal.Read.ridx_main_v20 (Cert.ReferenceIdeal.Read.idx_main_v21 j) u) (fun b => by
      match b with
      | ⟨0, _⟩ => exact c1
      | ⟨1, _⟩ => rfl)).trans ?_
    rfl

end Cert.KernelIdeal.Hand

end
-- ==== Proof.Bridge3.lean ====
/-
  Region 3's piece is the reference's piece. At flat index `j`, with `(v, i)` its row-major coordinates in
  `[4096, 7]`, the kernel's piece is `pathOut 7 x w` at `(i, v)`, that is `(∑ u, x[i, u] · w[u, v]) · scale` with `x[i, u]` the input's slice at `(u, i)`; the reference's is
  its `dot_general` of the same two arrays at `(v, i)`, `∑ u, w[u, v] · chunk[u, i]`, times the same scale word. The two
  sums differ in the order of the factors only.
-/
import proofs.«181552_j81286551044362_1_alg».proof.Proof.Piece3
import proofs.«181552_j81286551044362_1_alg».proof.Proof.Gen.ReferenceIdeal.Read
import Idealize.ShloMosaic.Lib.Pipeline.Value
import Idealize.ShloMosaic.Lib.ValueIdx

noncomputable section

namespace Cert.KernelIdeal.Hand

open Cert.Path
open Idealize.ShloMosaic Idealize.ShloMosaic.ValueIdx
open scoped BigOperators

theorem bridge3 (a0 : FVec Ideal Cert.KernelIdeal.S65536 .f32) (a1 : FVec Ideal Cert.KernelIdeal.S67108864 .f32) :
    kerPiece3 a0 a1 = Cert.ReferenceIdeal.Read.val_main_v31 (F := Ideal) a0 a1 := by
  funext j
  have hj : (j 0).val < 28672 := (j 0).isLt
  -- the reference's row-major coordinates of `j`
  have c0 : (Cert.ReferenceIdeal.Read.idx_main_v29 j 0).val = (j 0).val / 7 := rfl
  have c1 : (Cert.ReferenceIdeal.Read.idx_main_v29 j 1).val = (j 0).val % 7 := by
    first | rfl | (show (0 : Nat) = (j 0).val % 7; omega)
  rw [Cert.ReferenceIdeal.Read.val_main_v31_apply, Cert.ReferenceIdeal.Read.val_main_v29_apply,
    Cert.ReferenceIdeal.Read.val_main_v28_apply, Cert.ReferenceIdeal.Read.val_main_v30_apply,
    Cert.ReferenceIdeal.Read.val_main_cst_2_apply]
  unfold kerPiece3
  refine (shapeCast_apply _ _ j (Cert.ReferenceIdeal.Read.idx_main_v29 j) (by
    rewrite [Shape.rowMajor_val_two, Shape.rowMajor_val_one]
    show (Cert.ReferenceIdeal.Read.idx_main_v29 j 0).val * 7 + (Cert.ReferenceIdeal.Read.idx_main_v29 j 1).val = (j 0).val
    rw [c0, c1]; omega)).trans ?_
  refine (transpose_apply [1, 0] _ _ (Cert.ReferenceIdeal.Read.idx_main_v29 j)
    (ix2 (⟨(j 0).val % 7, by omega⟩ : Fin 7) (⟨(j 0).val / 7, by omega⟩ : Fin 4096)) (fun b => by
      match b with
      | ⟨0, _⟩ => exact c0.symm
      | ⟨1, _⟩ => exact c1.symm)).trans ?_
  rw [pathOut_apply]
  refine congrArg₂ (· * ·) (Finset.sum_congr rfl fun u _ => ?_) rfl
  rw [mul_comm]
  refine congrArg₂ (· * ·) ?_ ?_
  · show Cert.ReferenceIdeal.Read.val_main_v27 (F := Ideal) a1 _ = _
    refine congrArg _ (funext fun a => Fin.ext ?_)
    match a with
    | ⟨0, _⟩ => rfl
    | ⟨1, _⟩ => exact c0.symm
  · unfold xin3
    refine (transpose_apply [1, 0] _ _ _ (Cert.ReferenceIdeal.Read.ridx_main_v28 (Cert.ReferenceIdeal.Read.idx_main_v29 j) u) (fun b => by
      match b with
      | ⟨0, _⟩ => exact c1
      | ⟨1, _⟩ => rfl)).trans ?_
    rfl

end Cert.KernelIdeal.Hand

end
-- ==== Proof.lean ====
/-
  The layer is four independent paths. Path `k` (with `d = 1, 3, 5, 7` components) reads `4096 d` entries of the input as
  `chunk : [4096, d]` and `4096 · 4096` entries of the weights as `w : [4096, 4096]`, and contributes the flat piece
  `piece[d v + i] = (∑ u, chunk[u, i] · w[u, v]) / 64` to the result; the result is the four pieces one after the other.

  The kernel program computes each path in a pallas_call of eight grid points: the transposed chunk `x = chunkᵀ : [d, 4096]`
  stays resident, point `n` multiplies it on the matrix unit by columns `512 n … 512 n + 511` of `w` and scales by the
  f32 word of 1/64; host operations transpose the `[d, 4096]` result back and flatten it. At the ideal values the casts
  to bf16 are the identity and the matrix unit's product is the plain sum over the 4096 contracted channels, so tile by
  tile the region leaves `Cert.Path.pathOut d x w`, and the eight tiles cover the array. The reference computes
  `dot_general(w, chunk)` contracting the first axes, `∑ u, w[u, v] · chunk[u, i]`, flattens, and multiplies by the same
  word: the same sums with the two factors in the other order. Multiplication of extended reals is commutative, so the
  pieces agree index by index without any use of finiteness, and the two concatenations are one term.

  The frames: the kernel program's run is written once for any float instance (nine items: five host stretches, four
  regions) with every unscoped buffer's final contents named; both arguments are read back as launched. The reference's
  frame is its generated run with the result dropped. The idealization rewrote nothing, so `preserves` is `True`.
-/
import proofs.«181552_j81286551044362_1_alg».proof.Defs
import proofs.«181552_j81286551044362_1_alg».proof.Proof.Gen.Kernel
import proofs.«181552_j81286551044362_1_alg».proof.Proof.Gen.KernelIdeal
import proofs.«181552_j81286551044362_1_alg».proof.Proof.Gen.ReferenceIdeal
import proofs.«181552_j81286551044362_1_alg».proof.Proof.Gen.Pre_finite_inputs
import proofs.«181552_j81286551044362_1_alg».proof.Proof.Gen.ReferenceIdeal.Run
import proofs.«181552_j81286551044362_1_alg».proof.Proof.Gen.ReferenceIdeal.Read
import proofs.«181552_j81286551044362_1_alg».proof.Proof.K.Launch
import proofs.«181552_j81286551044362_1_alg».proof.Proof.KI.Value
import proofs.«181552_j81286551044362_1_alg».proof.Proof.Bridge0
import proofs.«181552_j81286551044362_1_alg».proof.Proof.Bridge1
import proofs.«181552_j81286551044362_1_alg».proof.Proof.Bridge2
import proofs.«181552_j81286551044362_1_alg».proof.Proof.Bridge3
import Idealize.ShloMosaic.Adequacy
import Idealize.ShloMosaic.Init

noncomputable section

namespace Cert.Proof

open Idealize.ShloMosaic Idealize.ShloMosaic.TcCoe Idealize.SL.Sem

/-- The kernel's four pieces concatenated are the reference's result term: piece by piece (`bridge k`). -/
theorem result_eq (a0 : FVec Ideal Cert.KernelIdeal.S65536 .f32) (a1 : FVec Ideal Cert.KernelIdeal.S67108864 .f32) :
    concatenate Cert.KernelIdeal.S65536 0 [⟨Cert.KernelIdeal.S4096, Cert.KernelIdeal.Hand.kerPiece0 a0 a1⟩, ⟨Cert.KernelIdeal.S12288, Cert.KernelIdeal.Hand.kerPiece1 a0 a1⟩, ⟨Cert.KernelIdeal.S20480, Cert.KernelIdeal.Hand.kerPiece2 a0 a1⟩, ⟨Cert.KernelIdeal.S28672, Cert.KernelIdeal.Hand.kerPiece3 a0 a1⟩] Cert.KernelIdeal.Facts₀.concatenates_S4096_S12288_S20480_S28672_S65536_d0
      = Cert.ReferenceIdeal.Read.val_main_v32 (F := Ideal) a0 a1 := by
  rw [Cert.KernelIdeal.Hand.bridge0, Cert.KernelIdeal.Hand.bridge1, Cert.KernelIdeal.Hand.bridge2, Cert.KernelIdeal.Hand.bridge3]
  rfl

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's term of the (agreeing) arguments. -/
theorem algebraic : Cert.algebraic_KernelIdeal_ReferenceIdeal := by
  intro m ρ m' ρ' _ hagree
  refine ⟨fun c => Cert.ReferenceIdeal.Read.val_main_v32 (F := Ideal) (Cert.KernelIdeal.Hand.arg0 m c) (Cert.KernelIdeal.Hand.arg1 m c), ?_, ?_⟩
  · refine (θ_run Cert.KernelIdeal.defs _ _).mono (fun r h c => ⟨?_, ?_, ?_⟩) (Cert.KernelIdeal.Hand.run_all m ρ)
    · exact (h c _ (Cert.KernelIdeal.Hand.mem_uc Cert.KernelIdeal.main_v32 (by decide))).trans
        ((Cert.KernelIdeal.Hand.end_v32 m c).trans (result_eq _ _))
    · exact (h c _ (Cert.KernelIdeal.Hand.mem_uc Cert.KernelIdeal.main_arg0 (by decide))).trans (Cert.KernelIdeal.Hand.kept_arg0 m c).2.2.2.2
    · exact (h c _ (Cert.KernelIdeal.Hand.mem_uc Cert.KernelIdeal.main_arg1 (by decide))).trans (Cert.KernelIdeal.Hand.kept_arg1 m c).2.2.2.2
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.Read.val_main_v32_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
